-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg2 : IVec S3200000 32) (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_c_14 : IVec S_ 32 := constantI S_ 32 4294867296#32
  let main_v39 : IVec S3200000 32 := broadcastInDim S3200000 ![] bcast_S_S3200000 main_c_14
  let main_v40 : IVec S3200000 1 := cmpi .sge main_arg2 main_v39
  let main_c_15 : IVec S_ 32 := constantI S_ 32 100000#32
  let main_v41 : IVec S3200000 32 := broadcastInDim S3200000 ![] bcast_S_S3200000 main_c_15
  let main_v42 : IVec S3200000 1 := cmpi .slt main_arg2 main_v41
  let main_v43 : IVec S3200000 1 := andi main_v40 main_v42
  let main_c_16 : IVec S_ 1 := constantI S_ 1 1#1
  let main_v44 : IVec S_ 1 := (fun x v => Host.reduce IntOp.andi x v reducesTo_S3200000_S_d0 h_S_) main_v43 main_c_16
  let main_v45 : IVec S_ 1 := andi main_v38 main_v44
  main_v45

def fn_part1 {F : FTy → Type} [FloatOps F] (main_arg2 : IVec S3200000 32) (main_arg6 : FVec F S32x16 .f32) (main_arg7 : FVec F S16 .f32) (main_arg8 : FVec F S16x40 .f32) (main_arg9 : FVec F S40 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x40 .f32 := Host.absf main_arg8
  let main_cst_10 : FVec F S_ .f32 := constant S_ .f32 0x7F800000#32
  let main_v30 : FVec F S16x40 .f32 := broadcastInDim S16x40 ![] bcast_S_S16x40 main_cst_10
  let main_v31 : IVec S16x40 1 := cmpf .olt main_v29 main_v30
  let main_c_11 : IVec S_ 1 := constantI S_ 1 1#1
  let main_v32 : IVec S_ 1 := (fun x v => Host.reduce IntOp.andi x v reducesTo_S16x40_S_d0_1 h_S_) main_v31 main_c_11
  let main_v33 : IVec S_ 1 := andi main_v28 main_v32
  fn_part2 (F := F) main_arg2 main_arg9 main_v33

def fn {F : FTy → Type} [FloatOps F] (main_arg0 : FVec F S100000x512 .f32) (main_arg1 : IVec S3200000 32) (main_arg2 : IVec S3200000 32) (main_arg3 : FVec F S3200000 .f32) (main_arg4 : FVec F S512x32 .f32) (main_arg5 : FVec F S32 .f32) (main_arg6 : FVec F S32x16 .f32) (main_arg7 : FVec F S16 .f32) (main_arg8 : FVec F S16x40 .f32) (main_arg9 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg6 main_arg7 main_arg8 main_arg9 main_v13 main_v16
-- ==== Kernel.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S16x40 : Shape := ⟨2, ![16, 40]⟩
abbrev S40 : Shape := ⟨1, ![40]⟩
abbrev S100000x32 : Shape := ⟨2, ![100000, 32]⟩
abbrev S4000x512 : Shape := ⟨2, ![4000, 512]⟩
abbrev S4000x32 : Shape := ⟨2, ![4000, 32]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x32 : Shape := ⟨2, ![3200000, 32]⟩
abbrev S1x32 : Shape := ⟨2, ![1, 32]⟩
abbrev S100000x16 : Shape := ⟨2, ![100000, 16]⟩
abbrev S4000x16 : Shape := ⟨2, ![4000, 16]⟩
abbrev S3200000x16 : Shape := ⟨2, ![3200000, 16]⟩
abbrev S1x16 : Shape := ⟨2, ![1, 16]⟩
abbrev S100000x40 : Shape := ⟨2, ![100000, 40]⟩
abbrev S4000x40 : Shape := ⟨2, ![4000, 40]⟩
abbrev S3200000x40 : Shape := ⟨2, ![3200000, 40]⟩
abbrev S1x40 : Shape := ⟨2, ![1, 40]⟩

abbrev nBuf : Space → Nat
  | .hbm => 109
  | .vmem => 30
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x40, .f32⟩
  | .hbm, ⟨9, _⟩ => ⟨S40, .f32⟩
  | .hbm, ⟨10, _⟩ => ⟨S100000x32, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S1, .i32⟩
  | .hbm, ⟨20, _⟩ => ⟨S_, .i32⟩
  | .hbm, ⟨21, _⟩ => ⟨S3200000x1, .i32⟩
  | .hbm, ⟨22, _⟩ => ⟨S3200000x1, .i1⟩
  | .hbm, ⟨23, _⟩ => ⟨S1x1, .i32⟩
  | .hbm, ⟨24, _⟩ => ⟨S3200000x1, .i32⟩
  | .hbm, ⟨25, _⟩ => ⟨S3200000x1, .i1⟩
  | .hbm, ⟨26, _⟩ => ⟨S3200000x1, .i1⟩
  | .hbm, ⟨27, _⟩ => ⟨S_, .i1⟩
  | .hbm, ⟨28, _⟩ => ⟨S3200000, .i1⟩
  | .hbm, ⟨29, _⟩ => ⟨S3200000x32, .f32⟩
  | .hbm, ⟨30, _⟩ => ⟨S3200000x32, .i1⟩
  | .hbm, ⟨31, _⟩ => ⟨S_, .f32⟩
  | .hbm, ⟨32, _⟩ => ⟨S3200000x32, .f32⟩
  | .hbm, ⟨33, _⟩ => ⟨S3200000x32, .f32⟩
  | .hbm, ⟨34, _⟩ => ⟨S3200000x1, .f32⟩
  | .hbm, ⟨35, _⟩ => ⟨S3200000x32, .f32⟩
  | .hbm, ⟨36, _⟩ => ⟨S3200000x32, .f32⟩
  | .hbm, ⟨37, _⟩ => ⟨S_, .f32⟩
  | .hbm, ⟨38, _⟩ => ⟨S100000x32, .f32⟩
  | .hbm, ⟨39, _⟩ => ⟨S3200000x1, .i32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x16, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S1, .i32⟩
  | .hbm, ⟨53, _⟩ => ⟨S_, .i32⟩
  | .hbm, ⟨54, _⟩ => ⟨S3200000x1, .i32⟩
  | .hbm, ⟨55, _⟩ => ⟨S3200000x1, .i1⟩
  | .hbm, ⟨56, _⟩ => ⟨S1x1, .i32⟩
  | .hbm, ⟨57, _⟩ => ⟨S3200000x1, .i32⟩
  | .hbm, ⟨58, _⟩ => ⟨S3200000x1, .i1⟩
  | .hbm, ⟨59, _⟩ => ⟨S3200000x1, .i1⟩
  | .hbm, ⟨60, _⟩ => ⟨S_, .i1⟩
  | .hbm, ⟨61, _⟩ => ⟨S3200000, .i1⟩
  | .hbm, ⟨62, _⟩ => ⟨S3200000x16, .f32⟩
  | .hbm, ⟨63, _⟩ => ⟨S3200000x16, .i1⟩
  | .hbm, ⟨64, _⟩ => ⟨S_, .f32⟩
  | .hbm, ⟨65, _⟩ => ⟨S3200000x16, .f32⟩
  | .hbm, ⟨66, _⟩ => ⟨S3200000x16, .f32⟩
  | .hbm, ⟨67, _⟩ => ⟨S3200000x1, .f32⟩
  | .hbm, ⟨68, _⟩ => ⟨S3200000x16, .f32⟩
  | .hbm, ⟨69, _⟩ => ⟨S3200000x16, .f32⟩
  | .hbm, ⟨70, _⟩ => ⟨S_, .f32⟩
  | .hbm, ⟨71, _⟩ => ⟨S100000x16, .f32⟩
  | .hbm, ⟨72, _⟩ => ⟨S3200000x1, .i32⟩
  | .hbm, ⟨73, _⟩ => ⟨S100000x16, .f32⟩
  | .hbm, ⟨74, _⟩ => ⟨S1x16, .f32⟩
  | .hbm, ⟨75, _⟩ => ⟨S100000x16, .f32⟩
  | .hbm, ⟨76, _⟩ => ⟨S100000x40, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S1, .i32⟩
  | .hbm, ⟨86, _⟩ => ⟨S_, .i32⟩
  | .hbm, ⟨87, _⟩ => ⟨S3200000x1, .i32⟩
  | .hbm, ⟨88, _⟩ => ⟨S3200000x1, .i1⟩
  | .hbm, ⟨89, _⟩ => ⟨S1x1, .i32⟩
  | .hbm, ⟨90, _⟩ => ⟨S3200000x1, .i32⟩
  | .hbm, ⟨91, _⟩ => ⟨S3200000x1, .i1⟩
  | .hbm, ⟨92, _⟩ => ⟨S3200000x1, .i1⟩
  | .hbm, ⟨93, _⟩ => ⟨S_, .i1⟩
  | .hbm, ⟨94, _⟩ => ⟨S3200000, .i1⟩
  | .hbm, ⟨95, _⟩ => ⟨S3200000x40, .f32⟩
  | .hbm, ⟨96, _⟩ => ⟨S3200000x40, .i1⟩
  | .hbm, ⟨97, _⟩ => ⟨S_, .f32⟩
  | .hbm, ⟨98, _⟩ => ⟨S3200000x40, .f32⟩
  | .hbm, ⟨99, _⟩ => ⟨S3200000x40, .f32⟩
  | .hbm, ⟨100, _⟩ => ⟨S3200000x1, .f32⟩
  | .hbm, ⟨101, _⟩ => ⟨S3200000x40, .f32⟩
  | .hbm, ⟨102, _⟩ => ⟨S3200000x40, .f32⟩
  | .hbm, ⟨103, _⟩ => ⟨S_, .f32⟩
  | .hbm, ⟨104, _⟩ => ⟨S100000x40, .f32⟩
  | .hbm, ⟨105, _⟩ => ⟨S3200000x1, .i32⟩
  | .hbm, ⟨106, _⟩ => ⟨S100000x40, .f32⟩
  | .hbm, ⟨107, _⟩ => ⟨S1x40, .f32⟩
  | .hbm, ⟨108, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S1x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S4000x32, .f32⟩
  | .local _ .vmem, ⟨12, _⟩ => ⟨S32x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S4000x16, .f32⟩
  | .local _ .vmem, ⟨17, _⟩ => ⟨S1x16, .f32⟩
  | .local _ .vmem, ⟨18, _⟩ => ⟨S4000x16, .f32⟩
  | .local _ .vmem, ⟨19, _⟩ => ⟨S4000x16, .f32⟩
  | .local _ .vmem, ⟨20, _⟩ => ⟨S4000x16, .f32⟩
  | .local _ .vmem, ⟨21, _⟩ => ⟨S4000x16, .f32⟩
  | .local _ .vmem, ⟨22, _⟩ => ⟨S16x40, .f32⟩
  | .local _ .vmem, ⟨23, _⟩ => ⟨S4000x40, .f32⟩
  | .local _ .vmem, ⟨24, _⟩ => ⟨S4000x40, .f32⟩
  | .local _ .vmem, ⟨25, _⟩ => ⟨S4000x40, .f32⟩
  | .local _ .vmem, ⟨26, _⟩ => ⟨S4000x40, .f32⟩
  | .local _ .vmem, ⟨27, _⟩ => ⟨S1x40, .f32⟩
  | .local _ .vmem, ⟨28, _⟩ => ⟨S4000x40, .f32⟩
  | .local _ .vmem, ⟨29, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_cst_0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_cst_1 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S4000x32_S4000x32_0_0 : ∀ a, (![0, 0] : Fin 2 → Nat) a + S4000x32.size a ≤ S4000x32.size a
  h_S4000x32 : 0 < S4000x32.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x16_S32x16_0_0 : ∀ a, (![0, 0] : Fin 2 → Nat) a + S32x16.size a ≤ S32x16.size a
  h_S32x16 : 0 < S32x16.numel
  inb_S4000x16_S4000x16_0_0 : ∀ a, (![0, 0] : Fin 2 → Nat) a + S4000x16.size a ≤ S4000x16.size a
  h_S4000x16 : 0 < S4000x16.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x40_S16x40_0_0 : ∀ a, (![0, 0] : Fin 2 → Nat) a + S16x40.size a ≤ S16x40.size a
  h_S16x40 : 0 < S16x40.numel
  inb_S4000x40_S4000x40_0_0 : ∀ a, (![0, 0] : Fin 2 → Nat) a + S4000x40.size a ≤ S4000x40.size a
  h_S4000x40 : 0 < S4000x40.numel
  bcast_S3200000_S3200000x40_0 : S3200000.BroadcastsInDim S3200000x40 (![0] : Fin 1 → Fin S3200000x40.rank)
  bcast_S_S3200000x40 : S_.BroadcastsInDim S3200000x40 (![] : Fin 0 → Fin S3200000x40.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  dot_S4000x512_S512x32_S4000x32_1_0_0_1_n_n_wf : DotDims.WF S4000x512 S512x32 S4000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S4000x32_S32x16_S4000x16_1_0_0_1_n_n_wf : DotDims.WF S4000x32 S32x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x40_S4000x40_1_0_0_1_n_n_wf : DotDims.WF S4000x16 S16x40 S4000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S100000x32.size a
  hwx1_2 : ∀ i : grid1.Coords, EltTy.bits .f32 = 32 ∨ (Rect.block (s := S100000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S100000x16.size a
  hwx4_0 : ∀ i : grid4.Coords, EltTy.bits .f32 = 32 ∨ (Rect.block (s := S100000x16) S4000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x40.size a ≤ S16x40.size a
  hwx4_1 : ∀ i : grid4.Coords, EltTy.bits .f32 = 32 ∨ (Rect.block (s := S16x40) S16x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x40.size a ≤ S100000x40.size a
  hwx4_2 : ∀ i : grid4.Coords, EltTy.bits .f32 = 32 ∨ (Rect.block (s := S100000x40) S4000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x40.size a ≤ S100000x40.size a
  hwx5_0 : ∀ i : grid5.Coords, EltTy.bits .f32 = 32 ∨ (Rect.block (s := S100000x40) S4000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x40.size a ≤ S100000x40.size a
  hwx5_2 : ∀ i : grid5.Coords, EltTy.bits .f32 = 32 ∨ (Rect.block (s := S100000x40) S4000x40.size (cc5_transform_2 i) (hinb5_2 i)).WholeWords (EltTy.packing .f32)

variable [Facts₀]

def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S4000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v19) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S16x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S4000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v27) S4000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S4000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S16x40 : Shape := ⟨2, ![16, 40]⟩
abbrev S40 : Shape := ⟨1, ![40]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 79
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x40, .f32⟩
  | .hbm, ⟨9, _⟩ => ⟨S40, .f32⟩
  | .hbm, ⟨10, _⟩ => ⟨S100000x32, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x32, .f32⟩
  | .hbm, ⟨20, _⟩ => ⟨S3200000x1, .f32⟩
  | .hbm, ⟨21, _⟩ => ⟨S3200000x32, .f32⟩
  | .hbm, ⟨22, _⟩ => ⟨S3200000x32, .f32⟩
  | .hbm, ⟨23, _⟩ => ⟨S_, .f32⟩
  | .hbm, ⟨24, _⟩ => ⟨S100000x32, .f32⟩
  | .hbm, ⟨25, _⟩ => ⟨S3200000x1, .i32⟩
  | .hbm, ⟨26, _⟩ => ⟨S100000x32, .f32⟩
  | .hbm, ⟨27, _⟩ => ⟨S1x32, .f32⟩
  | .hbm, ⟨28, _⟩ => ⟨S100000x32, .f32⟩
  | .hbm, ⟨29, _⟩ => ⟨S100000x32, .f32⟩
  | .hbm, ⟨30, _⟩ => ⟨S_, .f32⟩
  | .hbm, ⟨31, _⟩ => ⟨S100000x32, .f32⟩
  | .hbm, ⟨32, _⟩ => ⟨S100000x32, .f32⟩
  | .hbm, ⟨33, _⟩ => ⟨S100000x16, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S3200000x1, .f32⟩
  | .hbm, ⟨44, _⟩ => ⟨S3200000x16, .f32⟩
  | .hbm, ⟨45, _⟩ => ⟨S3200000x16, .f32⟩
  | .hbm, ⟨46, _⟩ => ⟨S_, .f32⟩
  | .hbm, ⟨47, _⟩ => ⟨S100000x16, .f32⟩
  | .hbm, ⟨48, _⟩ => ⟨S3200000x1, .i32⟩
  | .hbm, ⟨49, _⟩ => ⟨S100000x16, .f32⟩
  | .hbm, ⟨50, _⟩ => ⟨S1x16, .f32⟩
  | .hbm, ⟨51, _⟩ => ⟨S100000x16, .f32⟩
  | .hbm, ⟨52, _⟩ => ⟨S100000x16, .f32⟩
  | .hbm, ⟨53, _⟩ => ⟨S_, .f32⟩
  | .hbm, ⟨54, _⟩ => ⟨S100000x16, .f32⟩
  | .hbm, ⟨55, _⟩ => ⟨S100000x16, .f32⟩
  | .hbm, ⟨56, _⟩ => ⟨S100000x40, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x40, .f32⟩
  | .hbm, ⟨66, _⟩ => ⟨S3200000x1, .f32⟩
  | .hbm, ⟨67, _⟩ => ⟨S3200000x40, .f32⟩
  | .hbm, ⟨68, _⟩ => ⟨S3200000x40, .f32⟩
  | .hbm, ⟨69, _⟩ => ⟨S_, .f32⟩
  | .hbm, ⟨70, _⟩ => ⟨S100000x40, .f32⟩
  | .hbm, ⟨71, _⟩ => ⟨S3200000x1, .i32⟩
  | .hbm, ⟨72, _⟩ => ⟨S100000x40, .f32⟩
  | .hbm, ⟨73, _⟩ => ⟨S1x40, .f32⟩
  | .hbm, ⟨74, _⟩ => ⟨S100000x40, .f32⟩
  | .hbm, ⟨75, _⟩ => ⟨S100000x40, .f32⟩
  | .hbm, ⟨76, _⟩ => ⟨S_, .f32⟩
  | .hbm, ⟨77, _⟩ => ⟨S100000x40, .f32⟩
  | .hbm, ⟨78, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x32_S100000x32_1_0_0_1_n_n_wf : DotDims.WF S100000x512 S512x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.PreRange.lean ====
/-
  The added precondition, read. The last conjunct of the printed precondition says of the edge-source index array that
  every word `w` satisfies `w ≥ −100000` and `w < 100000` (signed compares against the two constants, combined by `and`
  and reduced by `and` over the whole array). Read at an index: every word's signed value lies in [−100000, 100000).
-/
import proofs.«417788_j2594160246963_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.PreRange

open Idealize.ShloMosaic Cert.Pre_finite_inputs

variable [Cert.Pre_finite_inputs.Facts]

instance : Subsingleton S_.Idx := ⟨fun a b => funext fun d => d.elim0⟩

/-- The word −100000 as a signed 32-bit value. -/
theorem toInt_neg : (4294867296#32 : BitVec 32).toInt = -100000 := by decide
/-- The word 100000 as a signed 32-bit value. -/
theorem toInt_pos : (100000#32 : BitVec 32).toInt = 100000 := by decide

/-- Under the precondition every edge-source index word lies in [−100000, 100000). -/
theorem col_range (a0 : FVec Ideal S100000x512 .f32) (a1 a2 : IVec S3200000 32) (a3 : FVec Ideal S3200000 .f32)
    (a4 : FVec Ideal S512x32 .f32) (a5 : FVec Ideal S32 .f32) (a6 : FVec Ideal S32x16 .f32) (a7 : FVec Ideal S16 .f32)
    (a8 : FVec Ideal S16x40 .f32) (a9 : FVec Ideal S40 .f32)
    (h : Cert.Pre_finite_inputs.fn (F := Ideal) a0 a1 a2 a3 a4 a5 a6 a7 a8 a9 = fun _ => 1#1) (e : S3200000.Idx) :
    -(100000 : ℤ) ≤ (a2 e).toInt ∧ (a2 e).toInt < (100000 : ℤ) := by
  have h0 := congrFun h ValueIdx.ix0
  unfold Cert.Pre_finite_inputs.fn Cert.Pre_finite_inputs.fn_part1 Cert.Pre_finite_inputs.fn_part2 at h0
  dsimp only at h0
  have h1 := (IntOp.andi_eq_one.mp h0).2
  have h2 := Host.reduce_andi_all _ _ _ _ _ h1 e
  obtain ⟨hge, hlt⟩ := IntOp.andi_eq_one.mp h2
  have hge' : (4294867296#32 : BitVec 32).toInt ≤ (a2 e).toInt := IntOp.cmpi_sge.mp hge
  have hlt' : (a2 e).toInt < (100000#32 : BitVec 32).toInt := IntOp.cmpi_slt.mp hlt
  rw [toInt_neg] at hge'
  rw [toInt_pos] at hlt'
  exact ⟨hge', hlt'⟩

end Cert.PreRange

end
-- ==== Proof.Keep.lean ====
/-
  The ten argument arrays keep their launch contents through the whole run: no host operation writes one, and a region
  either does not touch one or only reads it through an input window. Stated boundary by boundary: at each segment
  boundary of the run up to the last region's entry, every argument array still holds what the launch memory held.
-/
import proofs.«417788_j2594160246963_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]

/-- `b` is one of the ten argument arrays. -/
def IsArg (b : Ref sig .tc) : Prop := b = main_arg0 ∨ b = main_arg1 ∨ b = main_arg2 ∨ b = main_arg3 ∨ b = main_arg4 ∨ b = main_arg5 ∨ b = main_arg6 ∨ b = main_arg7 ∨ b = main_arg8 ∨ b = main_arg9

theorem isArg0 : IsArg main_arg0 := Or.inl rfl
theorem isArg1 : IsArg main_arg1 := Or.inr (Or.inl rfl)
theorem isArg2 : IsArg main_arg2 := Or.inr (Or.inr (Or.inl rfl))
theorem isArg3 : IsArg main_arg3 := Or.inr (Or.inr (Or.inr (Or.inl rfl)))
theorem isArg4 : IsArg main_arg4 := Or.inr (Or.inr (Or.inr (Or.inr (Or.inl rfl))))
theorem isArg5 : IsArg main_arg5 := Or.inr (Or.inr (Or.inr (Or.inr (Or.inr (Or.inl rfl)))))
theorem isArg6 : IsArg main_arg6 := Or.inr (Or.inr (Or.inr (Or.inr (Or.inr (Or.inr (Or.inl rfl))))))
theorem isArg7 : IsArg main_arg7 := Or.inr (Or.inr (Or.inr (Or.inr (Or.inr (Or.inr (Or.inr (Or.inl rfl)))))))
theorem isArg8 : IsArg main_arg8 := Or.inr (Or.inr (Or.inr (Or.inr (Or.inr (Or.inr (Or.inr (Or.inr (Or.inl rfl))))))))
theorem isArg9 : IsArg main_arg9 := Or.inr (Or.inr (Or.inr (Or.inr (Or.inr (Or.inr (Or.inr (Or.inr (Or.inr (rfl)))))))))

/-- No operation of this host stretch writes an argument array. -/
theorem keep_hostOps1 (W : Valuation τ sig (Elt F)) (b : Ref sig .tc) (hb : IsArg b) :
    StableHlo.after (hostOps1 (F := F)) W (Proc.devRef .tc b) = W (Proc.devRef .tc b) := by
  rcases hb with rfl | rfl | rfl | rfl | rfl | rfl | rfl | rfl | rfl | rfl <;>
  exact StableHlo.after_of_forall_not_mem (b := Proc.devRef .tc _) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this host stretch writes an argument array. -/
theorem keep_hostOps1_1 (W : Valuation τ sig (Elt F)) (b : Ref sig .tc) (hb : IsArg b) :
    StableHlo.after (hostOps1_1 (F := F)) W (Proc.devRef .tc b) = W (Proc.devRef .tc b) := by
  rcases hb with rfl | rfl | rfl | rfl | rfl | rfl | rfl | rfl | rfl | rfl <;>
  exact StableHlo.after_of_forall_not_mem (b := Proc.devRef .tc _) _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this host stretch writes an argument array. -/
theorem keep_hostOps3 (W : Valuation τ sig (Elt F)) (b : Ref sig .tc) (hb : IsArg b) :
    StableHlo.after (hostOps3 (F := F)) W (Proc.devRef .tc b) = W (Proc.devRef .tc b) := by
  rcases hb with rfl | rfl | rfl | rfl | rfl | rfl | rfl | rfl | rfl | rfl <;>
  exact StableHlo.after_of_forall_not_mem (b := Proc.devRef .tc _) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this host stretch writes an argument array. -/
theorem keep_hostOps3_1 (W : Valuation τ sig (Elt F)) (b : Ref sig .tc) (hb : IsArg b) :
    StableHlo.after (hostOps3_1 (F := F)) W (Proc.devRef .tc b) = W (Proc.devRef .tc b) := by
  rcases hb with rfl | rfl | rfl | rfl | rfl | rfl | rfl | rfl | rfl | rfl <;>
  exact StableHlo.after_of_forall_not_mem (b := Proc.devRef .tc _) _ _ (List.forall_iff_forall_mem.mp (by
    simp only [hostOps3_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this host stretch writes an argument array. -/
theorem keep_hostOps5 (W : Valuation τ sig (Elt F)) (b : Ref sig .tc) (hb : IsArg b) :
    StableHlo.after (hostOps5 (F := F)) W (Proc.devRef .tc b) = W (Proc.devRef .tc b) := by
  rcases hb with rfl | rfl | rfl | rfl | rfl | rfl | rfl | rfl | rfl | rfl <;>
  exact StableHlo.after_of_forall_not_mem (b := Proc.devRef .tc _) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of this host stretch writes an argument array. -/
theorem keep_hostOps5_1 (W : Valuation τ sig (Elt F)) (b : Ref sig .tc) (hb : IsArg b) :
    StableHlo.after (hostOps5_1 (F := F)) W (Proc.devRef .tc b) = W (Proc.devRef .tc b) := by
  rcases hb with rfl | rfl | rfl | rfl | rfl | rfl | rfl | rfl | rfl | rfl <;>
  exact StableHlo.after_of_forall_not_mem (b := Proc.devRef .tc _) _ _ (List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt F) ℓ) (ρ : Dev nD → PrngReg)

/-- Across region 0: an argument array is either none of the region's arrays or one of its input windows' arrays. -/
theorem keep_W1 (c : Dev nD) (b : Ref sig .tc) (hb : IsArg b) :
    W1 m ρ c (Proc.devRef .tc b) = W0 m ρ c (Proc.devRef .tc b) := by
  rcases hb with rfl | rfl | rfl | rfl | rfl | rfl | rfl | rfl | rfl | rfl <;>
  first
  | exact W1_of_ne m ρ c _ (by decide)
  | exact (W1_arr m ρ c 0).trans (((dat0 (V0 m ρ) c).arrAt_in 0 rfl _).trans (A_eq0 (V0 m ρ) c 0))
  | exact (W1_arr m ρ c 1).trans (((dat0 (V0 m ρ) c).arrAt_in 1 rfl _).trans (A_eq0 (V0 m ρ) c 1))

/-- Across region 1: an argument array is either none of the region's arrays or one of its input windows' arrays. -/
theorem keep_W4 (c : Dev nD) (b : Ref sig .tc) (hb : IsArg b) :
    W4 m ρ c (Proc.devRef .tc b) = W3 m ρ c (Proc.devRef .tc b) := by
  rcases hb with rfl | rfl | rfl | rfl | rfl | rfl | rfl | rfl | rfl | rfl <;>
  first
  | exact W4_of_ne m ρ c _ (by decide)

/-- Across region 2: an argument array is either none of the region's arrays or one of its input windows' arrays. -/
theorem keep_W5 (c : Dev nD) (b : Ref sig .tc) (hb : IsArg b) :
    W5 m ρ c (Proc.devRef .tc b) = W4 m ρ c (Proc.devRef .tc b) := by
  rcases hb with rfl | rfl | rfl | rfl | rfl | rfl | rfl | rfl | rfl | rfl <;>
  first
  | exact W5_of_ne m ρ c _ (by decide)
  | exact (W5_arr m ρ c 1).trans (((dat2 (V4 m ρ) c).arrAt_in 1 rfl _).trans (A_eq2 (V4 m ρ) c 1))

/-- Across region 3: an argument array is either none of the region's arrays or one of its input windows' arrays. -/
theorem keep_W8 (c : Dev nD) (b : Ref sig .tc) (hb : IsArg b) :
    W8 m ρ c (Proc.devRef .tc b) = W7 m ρ c (Proc.devRef .tc b) := by
  rcases hb with rfl | rfl | rfl | rfl | rfl | rfl | rfl | rfl | rfl | rfl <;>
  first
  | exact W8_of_ne m ρ c _ (by decide)

/-- Across region 4: an argument array is either none of the region's arrays or one of its input windows' arrays. -/
theorem keep_W9 (c : Dev nD) (b : Ref sig .tc) (hb : IsArg b) :
    W9 m ρ c (Proc.devRef .tc b) = W8 m ρ c (Proc.devRef .tc b) := by
  rcases hb with rfl | rfl | rfl | rfl | rfl | rfl | rfl | rfl | rfl | rfl <;>
  first
  | exact W9_of_ne m ρ c _ (by decide)
  | exact (W9_arr m ρ c 1).trans (((dat4 (V8 m ρ) c).arrAt_in 1 rfl _).trans (A_eq4 (V8 m ρ) c 1))

/-- Across region 5: an argument array is either none of the region's arrays or one of its input windows' arrays. -/
theorem keep_W12 (c : Dev nD) (b : Ref sig .tc) (hb : IsArg b) :
    W12 m ρ c (Proc.devRef .tc b) = W11 m ρ c (Proc.devRef .tc b) := by
  rcases hb with rfl | rfl | rfl | rfl | rfl | rfl | rfl | rfl | rfl | rfl <;>
  first
  | exact W12_of_ne m ρ c _ (by decide)

/-- At the launch. -/
theorem at_W0 (c : Dev nD) (b : Ref sig .tc) (hb : IsArg b) : W0 m ρ c (Proc.devRef .tc b) = m ((c : Thread nD τ).loc b) := rfl
theorem at_W1 (c : Dev nD) (b : Ref sig .tc) (hb : IsArg b) : W1 m ρ c (Proc.devRef .tc b) = m ((c : Thread nD τ).loc b) :=
  (keep_W1 m ρ c b hb).trans (at_W0 m ρ c b hb)
theorem at_W2 (c : Dev nD) (b : Ref sig .tc) (hb : IsArg b) : W2 m ρ c (Proc.devRef .tc b) = m ((c : Thread nD τ).loc b) :=
  (keep_hostOps1 (W1 m ρ c) b hb).trans (at_W1 m ρ c b hb)
theorem at_W3 (c : Dev nD) (b : Ref sig .tc) (hb : IsArg b) : W3 m ρ c (Proc.devRef .tc b) = m ((c : Thread nD τ).loc b) :=
  (keep_hostOps1_1 (W2 m ρ c) b hb).trans (at_W2 m ρ c b hb)
theorem at_W4 (c : Dev nD) (b : Ref sig .tc) (hb : IsArg b) : W4 m ρ c (Proc.devRef .tc b) = m ((c : Thread nD τ).loc b) :=
  (keep_W4 m ρ c b hb).trans (at_W3 m ρ c b hb)
theorem at_W5 (c : Dev nD) (b : Ref sig .tc) (hb : IsArg b) : W5 m ρ c (Proc.devRef .tc b) = m ((c : Thread nD τ).loc b) :=
  (keep_W5 m ρ c b hb).trans (at_W4 m ρ c b hb)
theorem at_W6 (c : Dev nD) (b : Ref sig .tc) (hb : IsArg b) : W6 m ρ c (Proc.devRef .tc b) = m ((c : Thread nD τ).loc b) :=
  (keep_hostOps3 (W5 m ρ c) b hb).trans (at_W5 m ρ c b hb)
theorem at_W7 (c : Dev nD) (b : Ref sig .tc) (hb : IsArg b) : W7 m ρ c (Proc.devRef .tc b) = m ((c : Thread nD τ).loc b) :=
  (keep_hostOps3_1 (W6 m ρ c) b hb).trans (at_W6 m ρ c b hb)
theorem at_W8 (c : Dev nD) (b : Ref sig .tc) (hb : IsArg b) : W8 m ρ c (Proc.devRef .tc b) = m ((c : Thread nD τ).loc b) :=
  (keep_W8 m ρ c b hb).trans (at_W7 m ρ c b hb)
theorem at_W9 (c : Dev nD) (b : Ref sig .tc) (hb : IsArg b) : W9 m ρ c (Proc.devRef .tc b) = m ((c : Thread nD τ).loc b) :=
  (keep_W9 m ρ c b hb).trans (at_W8 m ρ c b hb)
theorem at_W10 (c : Dev nD) (b : Ref sig .tc) (hb : IsArg b) : W10 m ρ c (Proc.devRef .tc b) = m ((c : Thread nD τ).loc b) :=
  (keep_hostOps5 (W9 m ρ c) b hb).trans (at_W9 m ρ c b hb)
theorem at_W11 (c : Dev nD) (b : Ref sig .tc) (hb : IsArg b) : W11 m ρ c (Proc.devRef .tc b) = m ((c : Thread nD τ).loc b) :=
  (keep_hostOps5_1 (W10 m ρ c) b hb).trans (at_W10 m ρ c b hb)

end Cert.KernelIdeal.Keep

end
-- ==== Proof.MatmulValue0.lean ====
/-
  The value of a product region. The region multiplies a block of 4000 rows of its first array by the whole of its
  second array (both operands narrowed to bf16, which over the extended reals changes nothing) into a zero accumulator,
  once per grid point, and writes block `t` of the product. So whatever the two arrays hold when the region is entered,
  the result array ends holding their matrix product: entry (r, j) is the sum over k of (r, k) times (k, j) — the same
  sum the host's `dot_general` is over the extended reals.
-/
import proofs.«417788_j2594160246963_1_alg».proof.Proof.Gen.KernelIdeal.Frame
import proofs.«417788_j2594160246963_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.MatmulValue0

open Cert.KernelIdeal Cert.KernelIdeal.Gen
open Idealize.ShloMosaic Idealize.ShloMosaic.TcCoe Idealize.ShloMosaic.ValueIdx Idealize.SL.Sem
open Idealize.ShloMosaic.Pipeline (Dat)

theorem lhsK_0 (i : S4000x32.Idx) (q : dot_S4000x512_S512x32_S4000x32_1_0_0_1_n_n.contr.Idx) :
    (dot_S4000x512_S512x32_S4000x32_1_0_0_1_n_n.lhsIdx i q 0).val = (i 0).val := by
  unfold DotDims.lhsIdx
  rw [dif_neg (show ¬(0 : Fin S4000x512.rank) ∈ dot_S4000x512_S512x32_S4000x32_1_0_0_1_n_n.lhsBatch by decide), dif_pos (show (0 : Fin S4000x512.rank) ∈ dot_S4000x512_S512x32_S4000x32_1_0_0_1_n_n.lhsNonContracting by decide)]
  rfl
theorem lhsK_1 (i : S4000x32.Idx) (q : dot_S4000x512_S512x32_S4000x32_1_0_0_1_n_n.contr.Idx) :
    (dot_S4000x512_S512x32_S4000x32_1_0_0_1_n_n.lhsIdx i q 1).val = (q ⟨0, by decide⟩).val :=
  dot_S4000x512_S512x32_S4000x32_1_0_0_1_n_n.lhsIdx_val_of_single rfl i q
theorem rhsK_0 (i : S4000x32.Idx) (q : dot_S4000x512_S512x32_S4000x32_1_0_0_1_n_n.contr.Idx) :
    (dot_S4000x512_S512x32_S4000x32_1_0_0_1_n_n.rhsIdx i q 0).val = (q ⟨0, by decide⟩).val :=
  dot_S4000x512_S512x32_S4000x32_1_0_0_1_n_n.rhsIdx_val_of_single rfl i q
theorem rhsK_1 (i : S4000x32.Idx) (q : dot_S4000x512_S512x32_S4000x32_1_0_0_1_n_n.contr.Idx) :
    (dot_S4000x512_S512x32_S4000x32_1_0_0_1_n_n.rhsIdx i q 1).val = (i 1).val := by
  unfold DotDims.rhsIdx
  rw [dif_neg (show ¬(1 : Fin S512x32.rank) ∈ dot_S4000x512_S512x32_S4000x32_1_0_0_1_n_n.rhsBatch by decide), dif_pos (show (1 : Fin S512x32.rank) ∈ dot_S4000x512_S512x32_S4000x32_1_0_0_1_n_n.rhsNonContracting by decide)]
  rfl

/-- One point's product at an entry of the block: the sum over the contracted axis. -/
theorem pay_at (x0 : FVec Ideal S4000x512 .f32) (x1 : FVec Ideal S512x32 .f32) (p : Fin 4000) (q : Fin 32) :
    k0_pay1 (F := Ideal) x0 x1 (ix2 p q) = ∑ k : Fin 512, x0 (ix2 p k) * x1 (ix2 k q) := by
  unfold k0_pay1
  try simp only [shapeCast_self]
  show FloatOps.matmul dot_S4000x512_S512x32_S4000x32_1_0_0_1_n_n none x0 x1 (constant S4000x32 .f32 0x00000000#32) (ix2 p q) = _
  rw [Ideal.matmul_constant_zero_apply, ← Equiv.sum_comp (ValueIdx.contrEquiv1 dot_S4000x512_S512x32_S4000x32_1_0_0_1_n_n 512 rfl rfl).symm]
  refine Finset.sum_congr rfl fun k _ => ?_
  have hk := ValueIdx.contrEquiv1_symm_val dot_S4000x512_S512x32_S4000x32_1_0_0_1_n_n 512 rfl rfl k
  have el : dot_S4000x512_S512x32_S4000x32_1_0_0_1_n_n.lhsIdx (ix2 p q) ((ValueIdx.contrEquiv1 dot_S4000x512_S512x32_S4000x32_1_0_0_1_n_n 512 rfl rfl).symm k) = ix2 p k := funext fun a => Fin.ext (by
    match a with
    | ⟨0, _⟩ => exact lhsK_0 _ _
    | ⟨1, _⟩ => exact (lhsK_1 _ _).trans hk)
  have er : dot_S4000x512_S512x32_S4000x32_1_0_0_1_n_n.rhsIdx (ix2 p q) ((ValueIdx.contrEquiv1 dot_S4000x512_S512x32_S4000x32_1_0_0_1_n_n 512 rfl rfl).symm k) = ix2 k q := funext fun a => Fin.ext (by
    match a with
    | ⟨0, _⟩ => exact (rhsK_0 _ _).trans hk
    | ⟨1, _⟩ => exact rhsK_1 _ _)
  rw [el, er]

theorem lhsR_0 (i : S100000x32.Idx) (q : Cert.ReferenceIdeal.dot_S100000x512_S512x32_S100000x32_1_0_0_1_n_n.contr.Idx) :
    (Cert.ReferenceIdeal.dot_S100000x512_S512x32_S100000x32_1_0_0_1_n_n.lhsIdx i q 0).val = (i 0).val := by
  unfold DotDims.lhsIdx
  rw [dif_neg (show ¬(0 : Fin S100000x512.rank) ∈ Cert.ReferenceIdeal.dot_S100000x512_S512x32_S100000x32_1_0_0_1_n_n.lhsBatch by decide), dif_pos (show (0 : Fin S100000x512.rank) ∈ Cert.ReferenceIdeal.dot_S100000x512_S512x32_S100000x32_1_0_0_1_n_n.lhsNonContracting by decide)]
  rfl
theorem lhsR_1 (i : S100000x32.Idx) (q : Cert.ReferenceIdeal.dot_S100000x512_S512x32_S100000x32_1_0_0_1_n_n.contr.Idx) :
    (Cert.ReferenceIdeal.dot_S100000x512_S512x32_S100000x32_1_0_0_1_n_n.lhsIdx i q 1).val = (q ⟨0, by decide⟩).val :=
  Cert.ReferenceIdeal.dot_S100000x512_S512x32_S100000x32_1_0_0_1_n_n.lhsIdx_val_of_single rfl i q
theorem rhsR_0 (i : S100000x32.Idx) (q : Cert.ReferenceIdeal.dot_S100000x512_S512x32_S100000x32_1_0_0_1_n_n.contr.Idx) :
    (Cert.ReferenceIdeal.dot_S100000x512_S512x32_S100000x32_1_0_0_1_n_n.rhsIdx i q 0).val = (q ⟨0, by decide⟩).val :=
  Cert.ReferenceIdeal.dot_S100000x512_S512x32_S100000x32_1_0_0_1_n_n.rhsIdx_val_of_single rfl i q
theorem rhsR_1 (i : S100000x32.Idx) (q : Cert.ReferenceIdeal.dot_S100000x512_S512x32_S100000x32_1_0_0_1_n_n.contr.Idx) :
    (Cert.ReferenceIdeal.dot_S100000x512_S512x32_S100000x32_1_0_0_1_n_n.rhsIdx i q 1).val = (i 1).val := by
  unfold DotDims.rhsIdx
  rw [dif_neg (show ¬(1 : Fin S512x32.rank) ∈ Cert.ReferenceIdeal.dot_S100000x512_S512x32_S100000x32_1_0_0_1_n_n.rhsBatch by decide), dif_pos (show (1 : Fin S512x32.rank) ∈ Cert.ReferenceIdeal.dot_S100000x512_S512x32_S100000x32_1_0_0_1_n_n.rhsNonContracting by decide)]
  rfl

/-- The host's product of the whole arrays at an entry: the same sum. -/
theorem ref_at (X : FVec Ideal S100000x512 .f32) (W : FVec Ideal S512x32 .f32) (r : Fin 100000) (q : Fin 32) :
    Host.dotGeneral (F := Ideal) Cert.ReferenceIdeal.dot_S100000x512_S512x32_S100000x32_1_0_0_1_n_n none X W (ix2 r q)
      = ∑ k : Fin 512, X (ix2 r k) * W (ix2 k q) := by
  simp only [Host.dotGeneral]
  rw [Ideal.dotGeneral_apply, ← Equiv.sum_comp (ValueIdx.contrEquiv1 Cert.ReferenceIdeal.dot_S100000x512_S512x32_S100000x32_1_0_0_1_n_n 512 rfl rfl).symm]
  refine Finset.sum_congr rfl fun k _ => ?_
  have hk := ValueIdx.contrEquiv1_symm_val Cert.ReferenceIdeal.dot_S100000x512_S512x32_S100000x32_1_0_0_1_n_n 512 rfl rfl k
  have el : Cert.ReferenceIdeal.dot_S100000x512_S512x32_S100000x32_1_0_0_1_n_n.lhsIdx (ix2 r q) ((ValueIdx.contrEquiv1 Cert.ReferenceIdeal.dot_S100000x512_S512x32_S100000x32_1_0_0_1_n_n 512 rfl rfl).symm k) = ix2 r k := funext fun a => Fin.ext (by
    match a with
    | ⟨0, _⟩ => exact lhsR_0 _ _
    | ⟨1, _⟩ => exact (lhsR_1 _ _).trans hk)
  have er : Cert.ReferenceIdeal.dot_S100000x512_S512x32_S100000x32_1_0_0_1_n_n.rhsIdx (ix2 r q) ((ValueIdx.contrEquiv1 Cert.ReferenceIdeal.dot_S100000x512_S512x32_S100000x32_1_0_0_1_n_n 512 rfl rfl).symm k) = ix2 k q := funext fun a => Fin.ext (by
    match a with
    | ⟨0, _⟩ => exact (rhsR_0 _ _).trans hk
    | ⟨1, _⟩ => exact rhsR_1 _ _)
  rw [el, er]

variable (V : (c : Dev nD) → (b : Ref sig .tc) → Buf (Elt Ideal) ((c : Thread nD τ).loc b))

/-- The region's first array as it finds it. -/
abbrev xarr (c : Dev nD) : FVec Ideal S100000x512 .f32 := V c main_arg0
/-- The region's second array as it finds it. -/
abbrev warr (c : Dev nD) : FVec Ideal S512x32 .f32 := V c main_arg4
/-- The product of the two arrays, in the host's spelling. -/
abbrev prod (c : Dev nD) : FVec Ideal S100000x32 .f32 :=
  Host.dotGeneral (F := Ideal) Cert.ReferenceIdeal.dot_S100000x512_S512x32_S100000x32_1_0_0_1_n_n none (xarr V c) (warr V c)

theorem hz : (![0, 0] : Fin 2 → Nat) = fun _ => 0 := funext fun a => by fin_cases a <;> rfl

/-- The printed index maps over the grid: the first operand's and the result's blocks move together down the rows, the
    second operand's block is the whole array, and the result's block column is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the arrays as the region finds them. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x32) hz]
  obtain ⟨e0, e1, e2, e3, e4, e5⟩ := idx_facts t
  funext j
  obtain ⟨p, q, rfl⟩ : ∃ (p : Fin 4000) (q : Fin 32), j = ix2 p q := ⟨j 0, j 1, eq_ix2 j⟩
  have ht : t.val < 25 := lt_of_lt_of_eq t.isLt N_0
  have hp : p.val < 4000 := p.isLt
  -- the array row this block entry is: 4000·t + p
  have hr : t.val * 4000 + p.val < 100000 := by omega
  have emb2 : ((cfg0.win 2).blk t).view.emb (ix2 p q) = ix2 (⟨t.val * 4000 + p.val, hr⟩ : Fin 100000) q := by
    funext a; apply Fin.ext
    match a with
    | ⟨0, _⟩ => show win0_2.index t (0 : Fin 2) * 4000 + 1 * p.val = t.val * 4000 + p.val; omega
    | ⟨1, _⟩ => show win0_2.index t (1 : Fin 2) * 32 + 1 * q.val = q.val; omega
  have emb0 : ∀ k : Fin 512, ((cfg0.win 0).blk t).view.emb (ix2 p k) = ix2 (⟨t.val * 4000 + p.val, hr⟩ : Fin 100000) k := by
    intro k; funext a; apply Fin.ext
    match a with
    | ⟨0, _⟩ => show win0_0.index t (0 : Fin 2) * 4000 + 1 * p.val = t.val * 4000 + p.val; omega
    | ⟨1, _⟩ => show win0_0.index t (1 : Fin 2) * 512 + 1 * k.val = k.val; omega
  have emb1 : ∀ k : Fin 512, ((cfg0.win 1).blk t).view.emb (ix2 k q) = ix2 k q := by
    intro k; funext a; apply Fin.ext
    match a with
    | ⟨0, _⟩ => show win0_1.index t (0 : Fin 2) * 512 + 1 * k.val = k.val; omega
    | ⟨1, _⟩ => show win0_1.index t (1 : Fin 2) * 32 + 1 * q.val = q.val; omega
  show k0_pay1 (F := Ideal) (iblk0 V c 0 t) (iblk0 V c 1 t) (ix2 p q) = prod V c (((cfg0.win 2).blk t).view.emb (ix2 p q))
  refine (pay_at _ _ p q).trans ?_
  rw [emb2]
  refine Eq.trans ?_ (ref_at (xarr V c) (warr V c) ⟨t.val * 4000 + p.val, hr⟩ q).symm
  refine Finset.sum_congr rfl fun k _ => ?_
  have h0 : iblk0 V c 0 t (ix2 p k) = xarr V c (ix2 (⟨t.val * 4000 + p.val, hr⟩ : Fin 100000) k) := by
    show V c main_arg0 (((cfg0.win 0).blk t).view.emb (ix2 p k)) = V c main_arg0 (ix2 (⟨t.val * 4000 + p.val, hr⟩ : Fin 100000) k)
    rw [emb0 k]
  have h1 : iblk0 V c 1 t (ix2 k q) = warr V c (ix2 k q) := by
    show V c main_arg4 (((cfg0.win 1).blk t).view.emb (ix2 k q)) = V c main_arg4 (ix2 k q)
    rw [emb1 k]
  rw [h0, h1]

/-- An index of the result array is in point `t`'s block iff each coordinate is in the block's range on its axis. -/
theorem mem_blk (t : Fin cfg0.N) (i : S100000x32.Idx) :
    i ∈ ((cfg0.win 2).blk t).view.set ↔ ∀ a : Fin 2, win0_2.index t a * S4000x32.size a ≤ (i a).val ∧ (i a).val < win0_2.index t a * S4000x32.size a + S4000x32.size a := by
  show i ∈ ((View.whole main_v0).slice (win0_2.rect t)).set ↔ _
  rw [View.set_slice_whole, Rect.mem_set_unit]
  exact Iff.rfl

/-- Every index of the result array lies in the block of the point its row belongs to: row `r` is in block `r / 4000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : (i 0).val / 4000 < cfg0.N := lt_of_lt_of_eq (by omega : (i 0).val / 4000 < 25) N_0.symm
  refine ⟨⟨(i 0).val / 4000, hN⟩, flush0_2 _, ?_⟩
  rw [mem_blk]
  obtain ⟨e0, e1, e2, e3, e4, e5⟩ := idx_facts ⟨(i 0).val / 4000, hN⟩
  have e4' : win0_2.index ⟨(i 0).val / 4000, hN⟩ (0 : Fin 2) = (i 0).val / 4000 := e4
  intro a
  match a with
  | ⟨0, _⟩ => show win0_2.index ⟨(i 0).val / 4000, hN⟩ (0 : Fin 2) * 4000 ≤ (i 0).val ∧ (i 0).val < win0_2.index ⟨(i 0).val / 4000, hN⟩ (0 : Fin 2) * 4000 + 4000; omega
  | ⟨1, _⟩ => show win0_2.index ⟨(i 0).val / 4000, hN⟩ (1 : Fin 2) * 32 ≤ (i 1).val ∧ (i 1).val < win0_2.index ⟨(i 0).val / 4000, hN⟩ (1 : Fin 2) * 32 + 32; omega

/-- THE REGION'S VALUE: whatever the arrays hold at entry, the result array ends at their product. -/
theorem final (c : Dev nD) : (dat0 V c).arrAt 2 cfg0.N = prod V c :=
  (dat0 V c).arrAt_eq_of_cover 2 (prod V c) (fun t _ => flushed_eq V c t) cover

end Cert.KernelIdeal.MatmulValue0

end
-- ==== Proof.MatmulValue2.lean ====
/-
  The value of a product region. The region multiplies a block of 4000 rows of its first array by the whole of its
  second array (both operands narrowed to bf16, which over the extended reals changes nothing) into a zero accumulator,
  once per grid point, and writes block `t` of the product. So whatever the two arrays hold when the region is entered,
  the result array ends holding their matrix product: entry (r, j) is the sum over k of (r, k) times (k, j) — the same
  sum the host's `dot_general` is over the extended reals.
-/
import proofs.«417788_j2594160246963_1_alg».proof.Proof.Gen.KernelIdeal.Frame
import proofs.«417788_j2594160246963_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.MatmulValue2

open Cert.KernelIdeal Cert.KernelIdeal.Gen
open Idealize.ShloMosaic Idealize.ShloMosaic.TcCoe Idealize.ShloMosaic.ValueIdx Idealize.SL.Sem
open Idealize.ShloMosaic.Pipeline (Dat)

theorem lhsK_0 (i : S4000x16.Idx) (q : dot_S4000x32_S32x16_S4000x16_1_0_0_1_n_n.contr.Idx) :
    (dot_S4000x32_S32x16_S4000x16_1_0_0_1_n_n.lhsIdx i q 0).val = (i 0).val := by
  unfold DotDims.lhsIdx
  rw [dif_neg (show ¬(0 : Fin S4000x32.rank) ∈ dot_S4000x32_S32x16_S4000x16_1_0_0_1_n_n.lhsBatch by decide), dif_pos (show (0 : Fin S4000x32.rank) ∈ dot_S4000x32_S32x16_S4000x16_1_0_0_1_n_n.lhsNonContracting by decide)]
  rfl
theorem lhsK_1 (i : S4000x16.Idx) (q : dot_S4000x32_S32x16_S4000x16_1_0_0_1_n_n.contr.Idx) :
    (dot_S4000x32_S32x16_S4000x16_1_0_0_1_n_n.lhsIdx i q 1).val = (q ⟨0, by decide⟩).val :=
  dot_S4000x32_S32x16_S4000x16_1_0_0_1_n_n.lhsIdx_val_of_single rfl i q
theorem rhsK_0 (i : S4000x16.Idx) (q : dot_S4000x32_S32x16_S4000x16_1_0_0_1_n_n.contr.Idx) :
    (dot_S4000x32_S32x16_S4000x16_1_0_0_1_n_n.rhsIdx i q 0).val = (q ⟨0, by decide⟩).val :=
  dot_S4000x32_S32x16_S4000x16_1_0_0_1_n_n.rhsIdx_val_of_single rfl i q
theorem rhsK_1 (i : S4000x16.Idx) (q : dot_S4000x32_S32x16_S4000x16_1_0_0_1_n_n.contr.Idx) :
    (dot_S4000x32_S32x16_S4000x16_1_0_0_1_n_n.rhsIdx i q 1).val = (i 1).val := by
  unfold DotDims.rhsIdx
  rw [dif_neg (show ¬(1 : Fin S32x16.rank) ∈ dot_S4000x32_S32x16_S4000x16_1_0_0_1_n_n.rhsBatch by decide), dif_pos (show (1 : Fin S32x16.rank) ∈ dot_S4000x32_S32x16_S4000x16_1_0_0_1_n_n.rhsNonContracting by decide)]
  rfl

/-- One point's product at an entry of the block: the sum over the contracted axis. -/
theorem pay_at (x0 : FVec Ideal S4000x32 .f32) (x1 : FVec Ideal S32x16 .f32) (p : Fin 4000) (q : Fin 16) :
    k2_pay1 (F := Ideal) x0 x1 (ix2 p q) = ∑ k : Fin 32, x0 (ix2 p k) * x1 (ix2 k q) := by
  unfold k2_pay1
  try simp only [shapeCast_self]
  show FloatOps.matmul dot_S4000x32_S32x16_S4000x16_1_0_0_1_n_n none x0 x1 (constant S4000x16 .f32 0x00000000#32) (ix2 p q) = _
  rw [Ideal.matmul_constant_zero_apply, ← Equiv.sum_comp (ValueIdx.contrEquiv1 dot_S4000x32_S32x16_S4000x16_1_0_0_1_n_n 32 rfl rfl).symm]
  refine Finset.sum_congr rfl fun k _ => ?_
  have hk := ValueIdx.contrEquiv1_symm_val dot_S4000x32_S32x16_S4000x16_1_0_0_1_n_n 32 rfl rfl k
  have el : dot_S4000x32_S32x16_S4000x16_1_0_0_1_n_n.lhsIdx (ix2 p q) ((ValueIdx.contrEquiv1 dot_S4000x32_S32x16_S4000x16_1_0_0_1_n_n 32 rfl rfl).symm k) = ix2 p k := funext fun a => Fin.ext (by
    match a with
    | ⟨0, _⟩ => exact lhsK_0 _ _
    | ⟨1, _⟩ => exact (lhsK_1 _ _).trans hk)
  have er : dot_S4000x32_S32x16_S4000x16_1_0_0_1_n_n.rhsIdx (ix2 p q) ((ValueIdx.contrEquiv1 dot_S4000x32_S32x16_S4000x16_1_0_0_1_n_n 32 rfl rfl).symm k) = ix2 k q := funext fun a => Fin.ext (by
    match a with
    | ⟨0, _⟩ => exact (rhsK_0 _ _).trans hk
    | ⟨1, _⟩ => exact rhsK_1 _ _)
  rw [el, er]

theorem lhsR_0 (i : S100000x16.Idx) (q : Cert.ReferenceIdeal.dot_S100000x32_S32x16_S100000x16_1_0_0_1_n_n.contr.Idx) :
    (Cert.ReferenceIdeal.dot_S100000x32_S32x16_S100000x16_1_0_0_1_n_n.lhsIdx i q 0).val = (i 0).val := by
  unfold DotDims.lhsIdx
  rw [dif_neg (show ¬(0 : Fin S100000x32.rank) ∈ Cert.ReferenceIdeal.dot_S100000x32_S32x16_S100000x16_1_0_0_1_n_n.lhsBatch by decide), dif_pos (show (0 : Fin S100000x32.rank) ∈ Cert.ReferenceIdeal.dot_S100000x32_S32x16_S100000x16_1_0_0_1_n_n.lhsNonContracting by decide)]
  rfl
theorem lhsR_1 (i : S100000x16.Idx) (q : Cert.ReferenceIdeal.dot_S100000x32_S32x16_S100000x16_1_0_0_1_n_n.contr.Idx) :
    (Cert.ReferenceIdeal.dot_S100000x32_S32x16_S100000x16_1_0_0_1_n_n.lhsIdx i q 1).val = (q ⟨0, by decide⟩).val :=
  Cert.ReferenceIdeal.dot_S100000x32_S32x16_S100000x16_1_0_0_1_n_n.lhsIdx_val_of_single rfl i q
theorem rhsR_0 (i : S100000x16.Idx) (q : Cert.ReferenceIdeal.dot_S100000x32_S32x16_S100000x16_1_0_0_1_n_n.contr.Idx) :
    (Cert.ReferenceIdeal.dot_S100000x32_S32x16_S100000x16_1_0_0_1_n_n.rhsIdx i q 0).val = (q ⟨0, by decide⟩).val :=
  Cert.ReferenceIdeal.dot_S100000x32_S32x16_S100000x16_1_0_0_1_n_n.rhsIdx_val_of_single rfl i q
theorem rhsR_1 (i : S100000x16.Idx) (q : Cert.ReferenceIdeal.dot_S100000x32_S32x16_S100000x16_1_0_0_1_n_n.contr.Idx) :
    (Cert.ReferenceIdeal.dot_S100000x32_S32x16_S100000x16_1_0_0_1_n_n.rhsIdx i q 1).val = (i 1).val := by
  unfold DotDims.rhsIdx
  rw [dif_neg (show ¬(1 : Fin S32x16.rank) ∈ Cert.ReferenceIdeal.dot_S100000x32_S32x16_S100000x16_1_0_0_1_n_n.rhsBatch by decide), dif_pos (show (1 : Fin S32x16.rank) ∈ Cert.ReferenceIdeal.dot_S100000x32_S32x16_S100000x16_1_0_0_1_n_n.rhsNonContracting by decide)]
  rfl

/-- The host's product of the whole arrays at an entry: the same sum. -/
theorem ref_at (X : FVec Ideal S100000x32 .f32) (W : FVec Ideal S32x16 .f32) (r : Fin 100000) (q : Fin 16) :
    Host.dotGeneral (F := Ideal) Cert.ReferenceIdeal.dot_S100000x32_S32x16_S100000x16_1_0_0_1_n_n none X W (ix2 r q)
      = ∑ k : Fin 32, X (ix2 r k) * W (ix2 k q) := by
  simp only [Host.dotGeneral]
  rw [Ideal.dotGeneral_apply, ← Equiv.sum_comp (ValueIdx.contrEquiv1 Cert.ReferenceIdeal.dot_S100000x32_S32x16_S100000x16_1_0_0_1_n_n 32 rfl rfl).symm]
  refine Finset.sum_congr rfl fun k _ => ?_
  have hk := ValueIdx.contrEquiv1_symm_val Cert.ReferenceIdeal.dot_S100000x32_S32x16_S100000x16_1_0_0_1_n_n 32 rfl rfl k
  have el : Cert.ReferenceIdeal.dot_S100000x32_S32x16_S100000x16_1_0_0_1_n_n.lhsIdx (ix2 r q) ((ValueIdx.contrEquiv1 Cert.ReferenceIdeal.dot_S100000x32_S32x16_S100000x16_1_0_0_1_n_n 32 rfl rfl).symm k) = ix2 r k := funext fun a => Fin.ext (by
    match a with
    | ⟨0, _⟩ => exact lhsR_0 _ _
    | ⟨1, _⟩ => exact (lhsR_1 _ _).trans hk)
  have er : Cert.ReferenceIdeal.dot_S100000x32_S32x16_S100000x16_1_0_0_1_n_n.rhsIdx (ix2 r q) ((ValueIdx.contrEquiv1 Cert.ReferenceIdeal.dot_S100000x32_S32x16_S100000x16_1_0_0_1_n_n 32 rfl rfl).symm k) = ix2 k q := funext fun a => Fin.ext (by
    match a with
    | ⟨0, _⟩ => exact (rhsR_0 _ _).trans hk
    | ⟨1, _⟩ => exact rhsR_1 _ _)
  rw [el, er]

variable (V : (c : Dev nD) → (b : Ref sig .tc) → Buf (Elt Ideal) ((c : Thread nD τ).loc b))

/-- The region's first array as it finds it. -/
abbrev xarr (c : Dev nD) : FVec Ideal S100000x32 .f32 := V c main_v9
/-- The region's second array as it finds it. -/
abbrev warr (c : Dev nD) : FVec Ideal S32x16 .f32 := V c main_arg6
/-- The product of the two arrays, in the host's spelling. -/
abbrev prod (c : Dev nD) : FVec Ideal S100000x16 .f32 :=
  Host.dotGeneral (F := Ideal) Cert.ReferenceIdeal.dot_S100000x32_S32x16_S100000x16_1_0_0_1_n_n none (xarr V c) (warr V c)

theorem hz : (![0, 0] : Fin 2 → Nat) = fun _ => 0 := funext fun a => by fin_cases a <;> rfl

/-- The printed index maps over the grid: the first operand's and the result's blocks move together down the rows, the
    second operand's block is the whole array, and the result's block column is 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the product of the arrays as the region finds them. -/
theorem flushed_eq (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero hz]
  simp only [View.ld_unit_zero (S := S4000x32) hz, View.ld_unit_zero (S := S32x16) hz]
  obtain ⟨e0, e1, e2, e3, e4, e5⟩ := idx_facts t
  funext j
  obtain ⟨p, q, rfl⟩ : ∃ (p : Fin 4000) (q : Fin 16), j = ix2 p q := ⟨j 0, j 1, eq_ix2 j⟩
  have ht : t.val < 25 := lt_of_lt_of_eq t.isLt N_2
  have hp : p.val < 4000 := p.isLt
  -- the array row this block entry is: 4000·t + p
  have hr : t.val * 4000 + p.val < 100000 := by omega
  have emb2 : ((cfg2.win 2).blk t).view.emb (ix2 p q) = ix2 (⟨t.val * 4000 + p.val, hr⟩ : Fin 100000) q := by
    funext a; apply Fin.ext
    match a with
    | ⟨0, _⟩ => show win2_2.index t (0 : Fin 2) * 4000 + 1 * p.val = t.val * 4000 + p.val; omega
    | ⟨1, _⟩ => show win2_2.index t (1 : Fin 2) * 16 + 1 * q.val = q.val; omega
  have emb0 : ∀ k : Fin 32, ((cfg2.win 0).blk t).view.emb (ix2 p k) = ix2 (⟨t.val * 4000 + p.val, hr⟩ : Fin 100000) k := by
    intro k; funext a; apply Fin.ext
    match a with
    | ⟨0, _⟩ => show win2_0.index t (0 : Fin 2) * 4000 + 1 * p.val = t.val * 4000 + p.val; omega
    | ⟨1, _⟩ => show win2_0.index t (1 : Fin 2) * 32 + 1 * k.val = k.val; omega
  have emb1 : ∀ k : Fin 32, ((cfg2.win 1).blk t).view.emb (ix2 k q) = ix2 k q := by
    intro k; funext a; apply Fin.ext
    match a with
    | ⟨0, _⟩ => show win2_1.index t (0 : Fin 2) * 32 + 1 * k.val = k.val; omega
    | ⟨1, _⟩ => show win2_1.index t (1 : Fin 2) * 16 + 1 * q.val = q.val; omega
  show k2_pay1 (F := Ideal) (iblk2 V c 0 t) (iblk2 V c 1 t) (ix2 p q) = prod V c (((cfg2.win 2).blk t).view.emb (ix2 p q))
  refine (pay_at _ _ p q).trans ?_
  rw [emb2]
  refine Eq.trans ?_ (ref_at (xarr V c) (warr V c) ⟨t.val * 4000 + p.val, hr⟩ q).symm
  refine Finset.sum_congr rfl fun k _ => ?_
  have h0 : iblk2 V c 0 t (ix2 p k) = xarr V c (ix2 (⟨t.val * 4000 + p.val, hr⟩ : Fin 100000) k) := by
    show V c main_v9 (((cfg2.win 0).blk t).view.emb (ix2 p k)) = V c main_v9 (ix2 (⟨t.val * 4000 + p.val, hr⟩ : Fin 100000) k)
    rw [emb0 k]
  have h1 : iblk2 V c 1 t (ix2 k q) = warr V c (ix2 k q) := by
    show V c main_arg6 (((cfg2.win 1).blk t).view.emb (ix2 k q)) = V c main_arg6 (ix2 k q)
    rw [emb1 k]
  rw [h0, h1]

/-- An index of the result array is in point `t`'s block iff each coordinate is in the block's range on its axis. -/
theorem mem_blk (t : Fin cfg2.N) (i : S100000x16.Idx) :
    i ∈ ((cfg2.win 2).blk t).view.set ↔ ∀ a : Fin 2, win2_2.index t a * S4000x16.size a ≤ (i a).val ∧ (i a).val < win2_2.index t a * S4000x16.size a + S4000x16.size a := by
  show i ∈ ((View.whole main_v10).slice (win2_2.rect t)).set ↔ _
  rw [View.set_slice_whole, Rect.mem_set_unit]
  exact Iff.rfl

/-- Every index of the result array lies in the block of the point its row belongs to: row `r` is in block `r / 4000`. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : (i 0).val / 4000 < cfg2.N := lt_of_lt_of_eq (by omega : (i 0).val / 4000 < 25) N_2.symm
  refine ⟨⟨(i 0).val / 4000, hN⟩, flush2_2 _, ?_⟩
  rw [mem_blk]
  obtain ⟨e0, e1, e2, e3, e4, e5⟩ := idx_facts ⟨(i 0).val / 4000, hN⟩
  have e4' : win2_2.index ⟨(i 0).val / 4000, hN⟩ (0 : Fin 2) = (i 0).val / 4000 := e4
  intro a
  match a with
  | ⟨0, _⟩ => show win2_2.index ⟨(i 0).val / 4000, hN⟩ (0 : Fin 2) * 4000 ≤ (i 0).val ∧ (i 0).val < win2_2.index ⟨(i 0).val / 4000, hN⟩ (0 : Fin 2) * 4000 + 4000; omega
  | ⟨1, _⟩ => show win2_2.index ⟨(i 0).val / 4000, hN⟩ (1 : Fin 2) * 16 ≤ (i 1).val ∧ (i 1).val < win2_2.index ⟨(i 0).val / 4000, hN⟩ (1 : Fin 2) * 16 + 16; omega

/-- THE REGION'S VALUE: whatever the arrays hold at entry, the result array ends at their product. -/
theorem final (c : Dev nD) : (dat2 V c).arrAt 2 cfg2.N = prod V c :=
  (dat2 V c).arrAt_eq_of_cover 2 (prod V c) (fun t _ => flushed_eq V c t) cover

end Cert.KernelIdeal.MatmulValue2

end
-- ==== Proof.MatmulValue4.lean ====
/-
  The value of a product region. The region multiplies a block of 4000 rows of its first array by the whole of its
  second array (both operands narrowed to bf16, which over the extended reals changes nothing) into a zero accumulator,
  once per grid point, and writes block `t` of the product. So whatever the two arrays hold when the region is entered,
  the result array ends holding their matrix product: entry (r, j) is the sum over k of (r, k) times (k, j) — the same
  sum the host's `dot_general` is over the extended reals.
-/
import proofs.«417788_j2594160246963_1_alg».proof.Proof.Gen.KernelIdeal.Frame
import proofs.«417788_j2594160246963_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.MatmulValue4

open Cert.KernelIdeal Cert.KernelIdeal.Gen
open Idealize.ShloMosaic Idealize.ShloMosaic.TcCoe Idealize.ShloMosaic.ValueIdx Idealize.SL.Sem
open Idealize.ShloMosaic.Pipeline (Dat)

theorem lhsK_0 (i : S4000x40.Idx) (q : dot_S4000x16_S16x40_S4000x40_1_0_0_1_n_n.contr.Idx) :
    (dot_S4000x16_S16x40_S4000x40_1_0_0_1_n_n.lhsIdx i q 0).val = (i 0).val := by
  unfold DotDims.lhsIdx
  rw [dif_neg (show ¬(0 : Fin S4000x16.rank) ∈ dot_S4000x16_S16x40_S4000x40_1_0_0_1_n_n.lhsBatch by decide), dif_pos (show (0 : Fin S4000x16.rank) ∈ dot_S4000x16_S16x40_S4000x40_1_0_0_1_n_n.lhsNonContracting by decide)]
  rfl
theorem lhsK_1 (i : S4000x40.Idx) (q : dot_S4000x16_S16x40_S4000x40_1_0_0_1_n_n.contr.Idx) :
    (dot_S4000x16_S16x40_S4000x40_1_0_0_1_n_n.lhsIdx i q 1).val = (q ⟨0, by decide⟩).val :=
  dot_S4000x16_S16x40_S4000x40_1_0_0_1_n_n.lhsIdx_val_of_single rfl i q
theorem rhsK_0 (i : S4000x40.Idx) (q : dot_S4000x16_S16x40_S4000x40_1_0_0_1_n_n.contr.Idx) :
    (dot_S4000x16_S16x40_S4000x40_1_0_0_1_n_n.rhsIdx i q 0).val = (q ⟨0, by decide⟩).val :=
  dot_S4000x16_S16x40_S4000x40_1_0_0_1_n_n.rhsIdx_val_of_single rfl i q
theorem rhsK_1 (i : S4000x40.Idx) (q : dot_S4000x16_S16x40_S4000x40_1_0_0_1_n_n.contr.Idx) :
    (dot_S4000x16_S16x40_S4000x40_1_0_0_1_n_n.rhsIdx i q 1).val = (i 1).val := by
  unfold DotDims.rhsIdx
  rw [dif_neg (show ¬(1 : Fin S16x40.rank) ∈ dot_S4000x16_S16x40_S4000x40_1_0_0_1_n_n.rhsBatch by decide), dif_pos (show (1 : Fin S16x40.rank) ∈ dot_S4000x16_S16x40_S4000x40_1_0_0_1_n_n.rhsNonContracting by decide)]
  rfl

/-- One point's product at an entry of the block: the sum over the contracted axis. -/
theorem pay_at (x0 : FVec Ideal S4000x16 .f32) (x1 : FVec Ideal S16x40 .f32) (p : Fin 4000) (q : Fin 40) :
    k4_pay1 (F := Ideal) x0 x1 (ix2 p q) = ∑ k : Fin 16, x0 (ix2 p k) * x1 (ix2 k q) := by
  unfold k4_pay1
  try simp only [shapeCast_self]
  show FloatOps.matmul dot_S4000x16_S16x40_S4000x40_1_0_0_1_n_n none x0 x1 (constant S4000x40 .f32 0x00000000#32) (ix2 p q) = _
  rw [Ideal.matmul_constant_zero_apply, ← Equiv.sum_comp (ValueIdx.contrEquiv1 dot_S4000x16_S16x40_S4000x40_1_0_0_1_n_n 16 rfl rfl).symm]
  refine Finset.sum_congr rfl fun k _ => ?_
  have hk := ValueIdx.contrEquiv1_symm_val dot_S4000x16_S16x40_S4000x40_1_0_0_1_n_n 16 rfl rfl k
  have el : dot_S4000x16_S16x40_S4000x40_1_0_0_1_n_n.lhsIdx (ix2 p q) ((ValueIdx.contrEquiv1 dot_S4000x16_S16x40_S4000x40_1_0_0_1_n_n 16 rfl rfl).symm k) = ix2 p k := funext fun a => Fin.ext (by
    match a with
    | ⟨0, _⟩ => exact lhsK_0 _ _
    | ⟨1, _⟩ => exact (lhsK_1 _ _).trans hk)
  have er : dot_S4000x16_S16x40_S4000x40_1_0_0_1_n_n.rhsIdx (ix2 p q) ((ValueIdx.contrEquiv1 dot_S4000x16_S16x40_S4000x40_1_0_0_1_n_n 16 rfl rfl).symm k) = ix2 k q := funext fun a => Fin.ext (by
    match a with
    | ⟨0, _⟩ => exact (rhsK_0 _ _).trans hk
    | ⟨1, _⟩ => exact rhsK_1 _ _)
  rw [el, er]

theorem lhsR_0 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 0).val = (i 0).val := by
  unfold DotDims.lhsIdx
  rw [dif_neg (show ¬(0 : Fin S100000x16.rank) ∈ Cert.ReferenceIdeal.dot_S100000x16_S16x40_S100000x40_1_0_0_1_n_n.lhsBatch by decide), dif_pos (show (0 : Fin S100000x16.rank) ∈ Cert.ReferenceIdeal.dot_S100000x16_S16x40_S100000x40_1_0_0_1_n_n.lhsNonContracting by decide)]
  rfl
theorem lhsR_1 (i : S100000x40.Idx) (q : Cert.ReferenceIdeal.dot_S100000x16_S16x40_S100000x40_1_0_0_1_n_n.contr.Idx) :
    (Cert.ReferenceIdeal.dot_S100000x16_S16x40_S100000x40_1_0_0_1_n_n.lhsIdx i q 1).val = (q ⟨0, by decide⟩).val :=
  Cert.ReferenceIdeal.dot_S100000x16_S16x40_S100000x40_1_0_0_1_n_n.lhsIdx_val_of_single rfl i q
theorem rhsR_0 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 0).val = (q ⟨0, by decide⟩).val :=
  Cert.ReferenceIdeal.dot_S100000x16_S16x40_S100000x40_1_0_0_1_n_n.rhsIdx_val_of_single rfl i q
theorem rhsR_1 (i : S100000x40.Idx) (q : Cert.ReferenceIdeal.dot_S100000x16_S16x40_S100000x40_1_0_0_1_n_n.contr.Idx) :
    (Cert.ReferenceIdeal.dot_S100000x16_S16x40_S100000x40_1_0_0_1_n_n.rhsIdx i q 1).val = (i 1).val := by
  unfold DotDims.rhsIdx
  rw [dif_neg (show ¬(1 : Fin S16x40.rank) ∈ Cert.ReferenceIdeal.dot_S100000x16_S16x40_S100000x40_1_0_0_1_n_n.rhsBatch by decide), dif_pos (show (1 : Fin S16x40.rank) ∈ Cert.ReferenceIdeal.dot_S100000x16_S16x40_S100000x40_1_0_0_1_n_n.rhsNonContracting by decide)]
  rfl

/-- The host's product of the whole arrays at an entry: the same sum. -/
theorem ref_at (X : FVec Ideal S100000x16 .f32) (W : FVec Ideal S16x40 .f32) (r : Fin 100000) (q : Fin 40) :
    Host.dotGeneral (F := Ideal) Cert.ReferenceIdeal.dot_S100000x16_S16x40_S100000x40_1_0_0_1_n_n none X W (ix2 r q)
      = ∑ k : Fin 16, X (ix2 r k) * W (ix2 k q) := by
  simp only [Host.dotGeneral]
  rw [Ideal.dotGeneral_apply, ← Equiv.sum_comp (ValueIdx.contrEquiv1 Cert.ReferenceIdeal.dot_S100000x16_S16x40_S100000x40_1_0_0_1_n_n 16 rfl rfl).symm]
  refine Finset.sum_congr rfl fun k _ => ?_
  have hk := ValueIdx.contrEquiv1_symm_val Cert.ReferenceIdeal.dot_S100000x16_S16x40_S100000x40_1_0_0_1_n_n 16 rfl rfl k
  have el : Cert.ReferenceIdeal.dot_S100000x16_S16x40_S100000x40_1_0_0_1_n_n.lhsIdx (ix2 r q) ((ValueIdx.contrEquiv1 Cert.ReferenceIdeal.dot_S100000x16_S16x40_S100000x40_1_0_0_1_n_n 16 rfl rfl).symm k) = ix2 r k := funext fun a => Fin.ext (by
    match a with
    | ⟨0, _⟩ => exact lhsR_0 _ _
    | ⟨1, _⟩ => exact (lhsR_1 _ _).trans hk)
  have er : Cert.ReferenceIdeal.dot_S100000x16_S16x40_S100000x40_1_0_0_1_n_n.rhsIdx (ix2 r q) ((ValueIdx.contrEquiv1 Cert.ReferenceIdeal.dot_S100000x16_S16x40_S100000x40_1_0_0_1_n_n 16 rfl rfl).symm k) = ix2 k q := funext fun a => Fin.ext (by
    match a with
    | ⟨0, _⟩ => exact (rhsR_0 _ _).trans hk
    | ⟨1, _⟩ => exact rhsR_1 _ _)
  rw [el, er]

variable (V : (c : Dev nD) → (b : Ref sig .tc) → Buf (Elt Ideal) ((c : Thread nD τ).loc b))

/-- The region's first array as it finds it. -/
abbrev xarr (c : Dev nD) : FVec Ideal S100000x16 .f32 := V c main_v19
/-- The region's second array as it finds it. -/
abbrev warr (c : Dev nD) : FVec Ideal S16x40 .f32 := V c main_arg8
/-- The product of the two arrays, in the host's spelling. -/
abbrev prod (c : Dev nD) : FVec Ideal S100000x40 .f32 :=
  Host.dotGeneral (F := Ideal) Cert.ReferenceIdeal.dot_S100000x16_S16x40_S100000x40_1_0_0_1_n_n none (xarr V c) (warr V c)

theorem hz : (![0, 0] : Fin 2 → Nat) = fun _ => 0 := funext fun a => by fin_cases a <;> rfl

/-- The printed index maps over the grid: the first operand's and the result's blocks move together down the rows, the
    second operand's block is the whole array, and the result's block column is 0. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the product of the arrays as the region finds them. -/
theorem flushed_eq (c : Dev nD) (t : Fin cfg4.N) :
    (dat4 V c).flushed 2 t = ((cfg4.win 2).blk t).view.read (Elt Ideal) (prod V c) := by
  show (cfg4.win 2).cut (grid4.coords t) ((dat4 V c).after 2 t) = _
  rw [after4_2]
  unfold out4_2
  rw [View.canon_unit_zero hz]
  simp only [View.ld_unit_zero (S := S4000x16) hz, View.ld_unit_zero (S := S16x40) hz]
  obtain ⟨e0, e1, e2, e3, e4, e5⟩ := idx_facts t
  funext j
  obtain ⟨p, q, rfl⟩ : ∃ (p : Fin 4000) (q : Fin 40), j = ix2 p q := ⟨j 0, j 1, eq_ix2 j⟩
  have ht : t.val < 25 := lt_of_lt_of_eq t.isLt N_4
  have hp : p.val < 4000 := p.isLt
  -- the array row this block entry is: 4000·t + p
  have hr : t.val * 4000 + p.val < 100000 := by omega
  have emb2 : ((cfg4.win 2).blk t).view.emb (ix2 p q) = ix2 (⟨t.val * 4000 + p.val, hr⟩ : Fin 100000) q := by
    funext a; apply Fin.ext
    match a with
    | ⟨0, _⟩ => show win4_2.index t (0 : Fin 2) * 4000 + 1 * p.val = t.val * 4000 + p.val; omega
    | ⟨1, _⟩ => show win4_2.index t (1 : Fin 2) * 40 + 1 * q.val = q.val; omega
  have emb0 : ∀ k : Fin 16, ((cfg4.win 0).blk t).view.emb (ix2 p k) = ix2 (⟨t.val * 4000 + p.val, hr⟩ : Fin 100000) k := by
    intro k; funext a; apply Fin.ext
    match a with
    | ⟨0, _⟩ => show win4_0.index t (0 : Fin 2) * 4000 + 1 * p.val = t.val * 4000 + p.val; omega
    | ⟨1, _⟩ => show win4_0.index t (1 : Fin 2) * 16 + 1 * k.val = k.val; omega
  have emb1 : ∀ k : Fin 16, ((cfg4.win 1).blk t).view.emb (ix2 k q) = ix2 k q := by
    intro k; funext a; apply Fin.ext
    match a with
    | ⟨0, _⟩ => show win4_1.index t (0 : Fin 2) * 16 + 1 * k.val = k.val; omega
    | ⟨1, _⟩ => show win4_1.index t (1 : Fin 2) * 40 + 1 * q.val = q.val; omega
  show k4_pay1 (F := Ideal) (iblk4 V c 0 t) (iblk4 V c 1 t) (ix2 p q) = prod V c (((cfg4.win 2).blk t).view.emb (ix2 p q))
  refine (pay_at _ _ p q).trans ?_
  rw [emb2]
  refine Eq.trans ?_ (ref_at (xarr V c) (warr V c) ⟨t.val * 4000 + p.val, hr⟩ q).symm
  refine Finset.sum_congr rfl fun k _ => ?_
  have h0 : iblk4 V c 0 t (ix2 p k) = xarr V c (ix2 (⟨t.val * 4000 + p.val, hr⟩ : Fin 100000) k) := by
    show V c main_v19 (((cfg4.win 0).blk t).view.emb (ix2 p k)) = V c main_v19 (ix2 (⟨t.val * 4000 + p.val, hr⟩ : Fin 100000) k)
    rw [emb0 k]
  have h1 : iblk4 V c 1 t (ix2 k q) = warr V c (ix2 k q) := by
    show V c main_arg8 (((cfg4.win 1).blk t).view.emb (ix2 k q)) = V c main_arg8 (ix2 k q)
    rw [emb1 k]
  rw [h0, h1]

/-- An index of the result array is in point `t`'s block iff each coordinate is in the block's range on its axis. -/
theorem mem_blk (t : Fin cfg4.N) (i : S100000x40.Idx) :
    i ∈ ((cfg4.win 2).blk t).view.set ↔ ∀ a : Fin 2, win4_2.index t a * S4000x40.size a ≤ (i a).val ∧ (i a).val < win4_2.index t a * S4000x40.size a + S4000x40.size a := by
  show i ∈ ((View.whole main_v20).slice (win4_2.rect t)).set ↔ _
  rw [View.set_slice_whole, Rect.mem_set_unit]
  exact Iff.rfl

/-- Every index of the result array lies in the block of the point its row belongs to: row `r` is in block `r / 4000`. -/
theorem cover (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  have hN : (i 0).val / 4000 < cfg4.N := lt_of_lt_of_eq (by omega : (i 0).val / 4000 < 25) N_4.symm
  refine ⟨⟨(i 0).val / 4000, hN⟩, flush4_2 _, ?_⟩
  rw [mem_blk]
  obtain ⟨e0, e1, e2, e3, e4, e5⟩ := idx_facts ⟨(i 0).val / 4000, hN⟩
  have e4' : win4_2.index ⟨(i 0).val / 4000, hN⟩ (0 : Fin 2) = (i 0).val / 4000 := e4
  intro a
  match a with
  | ⟨0, _⟩ => show win4_2.index ⟨(i 0).val / 4000, hN⟩ (0 : Fin 2) * 4000 ≤ (i 0).val ∧ (i 0).val < win4_2.index ⟨(i 0).val / 4000, hN⟩ (0 : Fin 2) * 4000 + 4000; omega
  | ⟨1, _⟩ => show win4_2.index ⟨(i 0).val / 4000, hN⟩ (1 : Fin 2) * 40 ≤ (i 1).val ∧ (i 1).val < win4_2.index ⟨(i 0).val / 4000, hN⟩ (1 : Fin 2) * 40 + 40; omega

/-- THE REGION'S VALUE: whatever the arrays hold at entry, the result array ends at their product. -/
theorem final (c : Dev nD) : (dat4 V c).arrAt 2 cfg4.N = prod V c :=
  (dat4 V c).arrAt_eq_of_cover 2 (prod V c) (fun t _ => flushed_eq V c t) cover

end Cert.KernelIdeal.MatmulValue4

end
-- ==== Proof.Spec1.lean ====
/-
  One layer of the function both programs compute, in the host's own operations. The layer takes node features H, a
  weight matrix W, a bias b, and the edge list (destination ids, source ids, weights): it forms HW = H·W; gathers row
  `col e` of HW for every edge e (a negative id counted from the end); scales it by the edge's weight; adds the scaled
  rows into the rows named by the destination ids, starting from zero; adds the bias to every row; and takes the
  maximum with zero. This is the layer of widths 512 → 32.
-/
import proofs.«417788_j2594160246963_1_alg».proof.Proof.Gen.ReferenceIdeal
import Idealize.ShloMosaic.PureOps.Ideal

noncomputable section

namespace Cert.Spec1

open Idealize.ShloMosaic Cert.ReferenceIdeal Cert.ReferenceIdeal.Facts₀

/-- The aggregation: the weighted rows of `hw` gathered by source id and added up by destination id. -/
def agg (hw : FVec Ideal S100000x32 .f32) (row col : IVec S3200000 32) (w : FVec Ideal S3200000 .f32) : FVec Ideal S100000x32 .f32 :=
  Host.scatterAdd scatter_S100000x32_S3200000x1_S3200000x32_1_0_0_1 (broadcastInDim S100000x32 ![] bcast_S_S100000x32 (constant S_ .f32 0x00000000#32))
    (broadcastInDim S3200000x1 ![0] bcast_S3200000_S3200000x1_0 row)
    (mulf (Host.gather gather_S100000x32_S3200000x1_S3200000x32_1_0_n_n_0_1_132 hw
        (broadcastInDim S3200000x1 ![0] bcast_S3200000_S3200000x1_0
          (select (cmpi .slt col (broadcastInDim S3200000 ![] bcast_S_S3200000 (constantI S_ 32 0#32)))
            (addi col (broadcastInDim S3200000 ![] bcast_S_S3200000 (constantI S_ 32 100000#32))) col)))
      (broadcastInDim S3200000x32 ![0, 1] bcast_S3200000x1_S3200000x32_0_1 (broadcastInDim S3200000x1 ![0] bcast_S3200000_S3200000x1_0 w)))

/-- The bias add and relu, the bias given as a one-row array. -/
def biasRelu (a : FVec Ideal S100000x32 .f32) (b : FVec Ideal S1x32 .f32) : FVec Ideal S100000x32 .f32 :=
  maximumf (addf a (broadcastInDim S100000x32 ![0, 1] bcast_S1x32_S100000x32_0_1 b))
    (broadcastInDim S100000x32 ![] bcast_S_S100000x32 (constant S_ .f32 0x00000000#32))

/-- The layer. -/
def layer (h : FVec Ideal S100000x512 .f32) (wt : FVec Ideal S512x32 .f32) (b : FVec Ideal S32 .f32)
    (row col : IVec S3200000 32) (w : FVec Ideal S3200000 .f32) : FVec Ideal S100000x32 .f32 :=
  biasRelu (agg (Host.dotGeneral dot_S100000x512_S512x32_S100000x32_1_0_0_1_n_n none h wt) row col w)
    (broadcastInDim S1x32 ![1] bcast_S32_S1x32_1 b)

end Cert.Spec1

end
-- ==== Proof.BiasReluValue1.lean ====
/-
  The value of a bias-and-relu region. At each grid point the region adds a one-row array, repeated down the rows, to a
  block of 4000 rows of its first array and takes the maximum with zero, writing block `t` of the result. So whatever
  the two arrays hold when the region is entered, entry (r, j) of the result array ends at max(A(r, j) + B(0, j), 0):
  the host's bias add followed by its relu, spelt as the host spells them.
-/
import proofs.«417788_j2594160246963_1_alg».proof.Proof.Gen.KernelIdeal.Frame
import proofs.«417788_j2594160246963_1_alg».proof.Proof.Spec1
import Idealize.ShloMosaic.Lib.Pipeline.Value
import Idealize.ShloMosaic.Lib.ValueIdx
import Idealize.ShloMosaic.PureOps.Ideal.Laws

set_option maxRecDepth 16384

noncomputable section

namespace Cert.KernelIdeal.BiasReluValue1

open Cert.KernelIdeal Cert.KernelIdeal.Gen
open Idealize.ShloMosaic Idealize.ShloMosaic.TcCoe Idealize.ShloMosaic.ValueIdx Idealize.SL.Sem
open Idealize.ShloMosaic.Pipeline (Dat)

/-- One point's result at an entry of the block. -/
theorem pay_at (x0 : FVec Ideal S4000x32 .f32) (x1 : FVec Ideal S1x32 .f32) (p : Fin 4000) (q : Fin 32) :
    k1_pay1 (F := Ideal) x0 x1 (ix2 p q)
      = max (x0 (ix2 p q) + x1 (ix2 (0 : Fin 1) q)) (FloatOps.ofBits (F := Ideal) .f32 0x00000000#32) := by
  unfold k1_pay1
  show max (shapeCast S4000x32 x0 shapeCasts_S4000x32_S4000x32 (ix2 p q)
      + broadcastTo S4000x32 (shapeCast S1x32 x1 shapeCasts_S1x32_S1x32) broadcasts_S1x32_S4000x32 (ix2 p q)) _ = _
  rw [shapeCast_self, shapeCast_self]
  rw [broadcastTo_apply x1 broadcasts_S1x32_S4000x32 (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)])]
  rfl

/-- The host's spelling at an entry. -/
theorem ref_at (A : FVec Ideal S100000x32 .f32) (B : FVec Ideal S1x32 .f32) (r : Fin 100000) (q : Fin 32) :
    Cert.Spec1.biasRelu A B (ix2 r q)
      = max (A (ix2 r q) + B (ix2 (0 : Fin 1) q)) (FloatOps.ofBits (F := Ideal) .f32 0x00000000#32) := by
  show max (A (ix2 r q) + broadcastInDim S100000x32 ![0, 1] Cert.ReferenceIdeal.Facts₀.bcast_S1x32_S100000x32_0_1 B (ix2 r q))
      (broadcastInDim S100000x32 ![] Cert.ReferenceIdeal.Facts₀.bcast_S_S100000x32 (constant (F := Ideal) S_ .f32 0x00000000#32) (ix2 r q)) = _
  rw [broadcastInDim_apply _ Cert.ReferenceIdeal.Facts₀.bcast_S1x32_S100000x32_0_1 B (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)]),
    broadcastInDim_apply _ Cert.ReferenceIdeal.Facts₀.bcast_S_S100000x32 (constant (F := Ideal) S_ .f32 0x00000000#32) (ix2 r q) ix0 (fun a => a.elim0)]
  rfl

variable (V : (c : Dev nD) → (b : Ref sig .tc) → Buf (Elt Ideal) ((c : Thread nD τ).loc b))

/-- The region's first array as it finds it. -/
abbrev aarr (c : Dev nD) : FVec Ideal S100000x32 .f32 := V c main_v7
/-- The region's one-row array as it finds it. -/
abbrev barr (c : Dev nD) : FVec Ideal S1x32 .f32 := V c main_v8
/-- What the result array ends at. -/
abbrev res (c : Dev nD) : FVec Ideal S100000x32 .f32 := Cert.Spec1.biasRelu (aarr V c) (barr V c)

theorem hz : (![0, 0] : Fin 2 → Nat) = fun _ => 0 := funext fun a => by fin_cases a <;> rfl

/-- The printed index maps over the grid: the first operand's and the result's blocks move together down the rows, the
    one-row operand's block is the whole array, and the result's block column is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the bias add and relu of the arrays as the region finds them. -/
theorem flushed_eq (c : Dev nD) (t : Fin cfg1.N) :
    (dat1 V c).flushed 2 t = ((cfg1.win 2).blk t).view.read (Elt Ideal) (res V c) := by
  show (cfg1.win 2).cut (grid1.coords t) ((dat1 V c).after 2 t) = _
  rw [after1_2]
  unfold out1_2
  rw [View.canon_unit_zero hz]
  simp only [View.ld_unit_zero (S := S4000x32) hz, View.ld_unit_zero (S := S1x32) hz]
  obtain ⟨e0, e1, e2, e3, e4, e5⟩ := idx_facts t
  funext j
  obtain ⟨p, q, rfl⟩ : ∃ (p : Fin 4000) (q : Fin 32), j = ix2 p q := ⟨j 0, j 1, eq_ix2 j⟩
  have ht : t.val < 25 := lt_of_lt_of_eq t.isLt N_1
  have hp : p.val < 4000 := p.isLt
  have hr : t.val * 4000 + p.val < 100000 := by omega
  have emb2 : ((cfg1.win 2).blk t).view.emb (ix2 p q) = ix2 (⟨t.val * 4000 + p.val, hr⟩ : Fin 100000) q := by
    funext a; apply Fin.ext
    match a with
    | ⟨0, _⟩ => show win1_2.index t (0 : Fin 2) * 4000 + 1 * p.val = t.val * 4000 + p.val; omega
    | ⟨1, _⟩ => show win1_2.index t (1 : Fin 2) * 32 + 1 * q.val = q.val; omega
  have emb0 : ((cfg1.win 0).blk t).view.emb (ix2 p q) = ix2 (⟨t.val * 4000 + p.val, hr⟩ : Fin 100000) q := by
    funext a; apply Fin.ext
    match a with
    | ⟨0, _⟩ => show win1_0.index t (0 : Fin 2) * 4000 + 1 * p.val = t.val * 4000 + p.val; omega
    | ⟨1, _⟩ => show win1_0.index t (1 : Fin 2) * 32 + 1 * q.val = q.val; omega
  have emb1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 32 + 1 * q.val = q.val; omega
  show k1_pay1 (F := Ideal) (iblk1 V c 0 t) (iblk1 V c 1 t) (ix2 p q) = res V c (((cfg1.win 2).blk t).view.emb (ix2 p q))
  refine (pay_at _ _ p q).trans ?_
  rw [emb2]
  refine Eq.trans ?_ (ref_at (aarr V c) (barr V c) ⟨t.val * 4000 + p.val, hr⟩ q).symm
  have h0 : iblk1 V c 0 t (ix2 p q) = aarr V c (ix2 (⟨t.val * 4000 + p.val, hr⟩ : Fin 100000) q) := by
    show V c main_v7 (((cfg1.win 0).blk t).view.emb (ix2 p q)) = V c main_v7 (ix2 (⟨t.val * 4000 + p.val, hr⟩ : Fin 100000) q)
    rw [emb0]
  have h1 : iblk1 V c 1 t (ix2 (0 : Fin 1) q) = barr V c (ix2 (0 : Fin 1) q) := by
    show V c main_v8 (((cfg1.win 1).blk t).view.emb (ix2 (0 : Fin 1) q)) = V c main_v8 (ix2 (0 : Fin 1) q)
    rw [emb1]
  rw [h0, h1]

/-- An index of the result array is in point `t`'s block iff each coordinate is in the block's range on its axis. -/
theorem mem_blk (t : Fin cfg1.N) (i : S100000x32.Idx) :
    i ∈ ((cfg1.win 2).blk t).view.set ↔ ∀ a : Fin 2, win1_2.index t a * S4000x32.size a ≤ (i a).val ∧ (i a).val < win1_2.index t a * S4000x32.size a + S4000x32.size a := by
  show i ∈ ((View.whole main_v9).slice (win1_2.rect t)).set ↔ _
  rw [View.set_slice_whole, Rect.mem_set_unit]
  exact Iff.rfl

/-- Every index of the result array lies in the block of the point its row belongs to: row `r` is in block `r / 4000`. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : (i 0).val / 4000 < cfg1.N := lt_of_lt_of_eq (by omega : (i 0).val / 4000 < 25) N_1.symm
  refine ⟨⟨(i 0).val / 4000, hN⟩, flush1_2 _, ?_⟩
  rw [mem_blk]
  obtain ⟨e0, e1, e2, e3, e4, e5⟩ := idx_facts ⟨(i 0).val / 4000, hN⟩
  have e4' : win1_2.index ⟨(i 0).val / 4000, hN⟩ (0 : Fin 2) = (i 0).val / 4000 := e4
  intro a
  match a with
  | ⟨0, _⟩ => show win1_2.index ⟨(i 0).val / 4000, hN⟩ (0 : Fin 2) * 4000 ≤ (i 0).val ∧ (i 0).val < win1_2.index ⟨(i 0).val / 4000, hN⟩ (0 : Fin 2) * 4000 + 4000; omega
  | ⟨1, _⟩ => show win1_2.index ⟨(i 0).val / 4000, hN⟩ (1 : Fin 2) * 32 ≤ (i 1).val ∧ (i 1).val < win1_2.index ⟨(i 0).val / 4000, hN⟩ (1 : Fin 2) * 32 + 32; omega

/-- THE REGION'S VALUE: whatever the arrays hold at entry, the result array ends at their bias add and relu. -/
theorem final (c : Dev nD) : (dat1 V c).arrAt 2 cfg1.N = res V c :=
  (dat1 V c).arrAt_eq_of_cover 2 (res V c) (fun t _ => flushed_eq V c t) cover

end Cert.KernelIdeal.BiasReluValue1

end
-- ==== Proof.Spec2.lean ====
/-
  One layer of the function both programs compute, in the host's own operations. The layer takes node features H, a
  weight matrix W, a bias b, and the edge list (destination ids, source ids, weights): it forms HW = H·W; gathers row
  `col e` of HW for every edge e (a negative id counted from the end); scales it by the edge's weight; adds the scaled
  rows into the rows named by the destination ids, starting from zero; adds the bias to every row; and takes the
  maximum with zero. This is the layer of widths 32 → 16.
-/
import proofs.«417788_j2594160246963_1_alg».proof.Proof.Gen.ReferenceIdeal
import Idealize.ShloMosaic.PureOps.Ideal

noncomputable section

namespace Cert.Spec2

open Idealize.ShloMosaic Cert.ReferenceIdeal Cert.ReferenceIdeal.Facts₀

/-- The aggregation: the weighted rows of `hw` gathered by source id and added up by destination id. -/
def agg (hw : FVec Ideal S100000x16 .f32) (row col : IVec S3200000 32) (w : FVec Ideal S3200000 .f32) : FVec Ideal S100000x16 .f32 :=
  Host.scatterAdd scatter_S100000x16_S3200000x1_S3200000x16_1_0_0_1 (broadcastInDim S100000x16 ![] bcast_S_S100000x16 (constant S_ .f32 0x00000000#32))
    (broadcastInDim S3200000x1 ![0] bcast_S3200000_S3200000x1_0 row)
    (mulf (Host.gather gather_S100000x16_S3200000x1_S3200000x16_1_0_n_n_0_1_116 hw
        (broadcastInDim S3200000x1 ![0] bcast_S3200000_S3200000x1_0
          (select (cmpi .slt col (broadcastInDim S3200000 ![] bcast_S_S3200000 (constantI S_ 32 0#32)))
            (addi col (broadcastInDim S3200000 ![] bcast_S_S3200000 (constantI S_ 32 100000#32))) col)))
      (broadcastInDim S3200000x16 ![0, 1] bcast_S3200000x1_S3200000x16_0_1 (broadcastInDim S3200000x1 ![0] bcast_S3200000_S3200000x1_0 w)))

/-- The bias add and relu, the bias given as a one-row array. -/
def biasRelu (a : FVec Ideal S100000x16 .f32) (b : FVec Ideal S1x16 .f32) : FVec Ideal S100000x16 .f32 :=
  maximumf (addf a (broadcastInDim S100000x16 ![0, 1] bcast_S1x16_S100000x16_0_1 b))
    (broadcastInDim S100000x16 ![] bcast_S_S100000x16 (constant S_ .f32 0x00000000#32))

/-- The layer. -/
def layer (h : FVec Ideal S100000x32 .f32) (wt : FVec Ideal S32x16 .f32) (b : FVec Ideal S16 .f32)
    (row col : IVec S3200000 32) (w : FVec Ideal S3200000 .f32) : FVec Ideal S100000x16 .f32 :=
  biasRelu (agg (Host.dotGeneral dot_S100000x32_S32x16_S100000x16_1_0_0_1_n_n none h wt) row col w)
    (broadcastInDim S1x16 ![1] bcast_S16_S1x16_1 b)

end Cert.Spec2

end
-- ==== Proof.BiasReluValue3.lean ====
/-
  The value of a bias-and-relu region. At each grid point the region adds a one-row array, repeated down the rows, to a
  block of 4000 rows of its first array and takes the maximum with zero, writing block `t` of the result. So whatever
  the two arrays hold when the region is entered, entry (r, j) of the result array ends at max(A(r, j) + B(0, j), 0):
  the host's bias add followed by its relu, spelt as the host spells them.
-/
import proofs.«417788_j2594160246963_1_alg».proof.Proof.Gen.KernelIdeal.Frame
import proofs.«417788_j2594160246963_1_alg».proof.Proof.Spec2
import Idealize.ShloMosaic.Lib.Pipeline.Value
import Idealize.ShloMosaic.Lib.ValueIdx
import Idealize.ShloMosaic.PureOps.Ideal.Laws

set_option maxRecDepth 16384

noncomputable section

namespace Cert.KernelIdeal.BiasReluValue3

open Cert.KernelIdeal Cert.KernelIdeal.Gen
open Idealize.ShloMosaic Idealize.ShloMosaic.TcCoe Idealize.ShloMosaic.ValueIdx Idealize.SL.Sem
open Idealize.ShloMosaic.Pipeline (Dat)

/-- One point's result at an entry of the block. -/
theorem pay_at (x0 : FVec Ideal S4000x16 .f32) (x1 : FVec Ideal S1x16 .f32) (p : Fin 4000) (q : Fin 16) :
    k3_pay1 (F := Ideal) x0 x1 (ix2 p q)
      = max (x0 (ix2 p q) + x1 (ix2 (0 : Fin 1) q)) (FloatOps.ofBits (F := Ideal) .f32 0x00000000#32) := by
  unfold k3_pay1
  show max (shapeCast S4000x16 x0 shapeCasts_S4000x16_S4000x16 (ix2 p q)
      + broadcastTo S4000x16 (shapeCast S1x16 x1 shapeCasts_S1x16_S1x16) broadcasts_S1x16_S4000x16 (ix2 p q)) _ = _
  rw [shapeCast_self, shapeCast_self]
  rw [broadcastTo_apply x1 broadcasts_S1x16_S4000x16 (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])]
  rfl

/-- The host's spelling at an entry. -/
theorem ref_at (A : FVec Ideal S100000x16 .f32) (B : FVec Ideal S1x16 .f32) (r : Fin 100000) (q : Fin 16) :
    Cert.Spec2.biasRelu A B (ix2 r q)
      = max (A (ix2 r q) + B (ix2 (0 : Fin 1) q)) (FloatOps.ofBits (F := Ideal) .f32 0x00000000#32) := by
  show max (A (ix2 r q) + broadcastInDim S100000x16 ![0, 1] Cert.ReferenceIdeal.Facts₀.bcast_S1x16_S100000x16_0_1 B (ix2 r q))
      (broadcastInDim S100000x16 ![] Cert.ReferenceIdeal.Facts₀.bcast_S_S100000x16 (constant (F := Ideal) S_ .f32 0x00000000#32) (ix2 r q)) = _
  rw [broadcastInDim_apply _ Cert.ReferenceIdeal.Facts₀.bcast_S1x16_S100000x16_0_1 B (ix2 r q) (ix2 (0 : Fin 1) q) (fun a => match a with
    | ⟨0, _⟩ => by show 0 = if (1 : Nat) = 1 then 0 else r.val; rw [if_pos rfl]
    | ⟨1, _⟩ => by show q.val = if (16 : Nat) = 1 then 0 else q.val; rw [if_neg (by decide)]),
    broadcastInDim_apply _ Cert.ReferenceIdeal.Facts₀.bcast_S_S100000x16 (constant (F := Ideal) S_ .f32 0x00000000#32) (ix2 r q) ix0 (fun a => a.elim0)]
  rfl

variable (V : (c : Dev nD) → (b : Ref sig .tc) → Buf (Elt Ideal) ((c : Thread nD τ).loc b))

/-- The region's first array as it finds it. -/
abbrev aarr (c : Dev nD) : FVec Ideal S100000x16 .f32 := V c main_v17
/-- The region's one-row array as it finds it. -/
abbrev barr (c : Dev nD) : FVec Ideal S1x16 .f32 := V c main_v18
/-- What the result array ends at. -/
abbrev res (c : Dev nD) : FVec Ideal S100000x16 .f32 := Cert.Spec2.biasRelu (aarr V c) (barr V c)

theorem hz : (![0, 0] : Fin 2 → Nat) = fun _ => 0 := funext fun a => by fin_cases a <;> rfl

/-- The printed index maps over the grid: the first operand's and the result's blocks move together down the rows, the
    one-row operand's block is the whole array, and the result's block column is 0. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the bias add and relu of the arrays as the region finds them. -/
theorem flushed_eq (c : Dev nD) (t : Fin cfg3.N) :
    (dat3 V c).flushed 2 t = ((cfg3.win 2).blk t).view.read (Elt Ideal) (res V c) := by
  show (cfg3.win 2).cut (grid3.coords t) ((dat3 V c).after 2 t) = _
  rw [after3_2]
  unfold out3_2
  rw [View.canon_unit_zero hz]
  simp only [View.ld_unit_zero (S := S4000x16) hz, View.ld_unit_zero (S := S1x16) hz]
  obtain ⟨e0, e1, e2, e3, e4, e5⟩ := idx_facts t
  funext j
  obtain ⟨p, q, rfl⟩ : ∃ (p : Fin 4000) (q : Fin 16), j = ix2 p q := ⟨j 0, j 1, eq_ix2 j⟩
  have ht : t.val < 25 := lt_of_lt_of_eq t.isLt N_3
  have hp : p.val < 4000 := p.isLt
  have hr : t.val * 4000 + p.val < 100000 := by omega
  have emb2 : ((cfg3.win 2).blk t).view.emb (ix2 p q) = ix2 (⟨t.val * 4000 + p.val, hr⟩ : Fin 100000) q := by
    funext a; apply Fin.ext
    match a with
    | ⟨0, _⟩ => show win3_2.index t (0 : Fin 2) * 4000 + 1 * p.val = t.val * 4000 + p.val; omega
    | ⟨1, _⟩ => show win3_2.index t (1 : Fin 2) * 16 + 1 * q.val = q.val; omega
  have emb0 : ((cfg3.win 0).blk t).view.emb (ix2 p q) = ix2 (⟨t.val * 4000 + p.val, hr⟩ : Fin 100000) q := by
    funext a; apply Fin.ext
    match a with
    | ⟨0, _⟩ => show win3_0.index t (0 : Fin 2) * 4000 + 1 * p.val = t.val * 4000 + p.val; omega
    | ⟨1, _⟩ => show win3_0.index t (1 : Fin 2) * 16 + 1 * q.val = q.val; omega
  have emb1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 16 + 1 * q.val = q.val; omega
  show k3_pay1 (F := Ideal) (iblk3 V c 0 t) (iblk3 V c 1 t) (ix2 p q) = res V c (((cfg3.win 2).blk t).view.emb (ix2 p q))
  refine (pay_at _ _ p q).trans ?_
  rw [emb2]
  refine Eq.trans ?_ (ref_at (aarr V c) (barr V c) ⟨t.val * 4000 + p.val, hr⟩ q).symm
  have h0 : iblk3 V c 0 t (ix2 p q) = aarr V c (ix2 (⟨t.val * 4000 + p.val, hr⟩ : Fin 100000) q) := by
    show V c main_v17 (((cfg3.win 0).blk t).view.emb (ix2 p q)) = V c main_v17 (ix2 (⟨t.val * 4000 + p.val, hr⟩ : Fin 100000) q)
    rw [emb0]
  have h1 : iblk3 V c 1 t (ix2 (0 : Fin 1) q) = barr V c (ix2 (0 : Fin 1) q) := by
    show V c main_v18 (((cfg3.win 1).blk t).view.emb (ix2 (0 : Fin 1) q)) = V c main_v18 (ix2 (0 : Fin 1) q)
    rw [emb1]
  rw [h0, h1]

/-- An index of the result array is in point `t`'s block iff each coordinate is in the block's range on its axis. -/
theorem mem_blk (t : Fin cfg3.N) (i : S100000x16.Idx) :
    i ∈ ((cfg3.win 2).blk t).view.set ↔ ∀ a : Fin 2, win3_2.index t a * S4000x16.size a ≤ (i a).val ∧ (i a).val < win3_2.index t a * S4000x16.size a + S4000x16.size a := by
  show i ∈ ((View.whole main_v19).slice (win3_2.rect t)).set ↔ _
  rw [View.set_slice_whole, Rect.mem_set_unit]
  exact Iff.rfl

/-- Every index of the result array lies in the block of the point its row belongs to: row `r` is in block `r / 4000`. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : (i 0).val / 4000 < cfg3.N := lt_of_lt_of_eq (by omega : (i 0).val / 4000 < 25) N_3.symm
  refine ⟨⟨(i 0).val / 4000, hN⟩, flush3_2 _, ?_⟩
  rw [mem_blk]
  obtain ⟨e0, e1, e2, e3, e4, e5⟩ := idx_facts ⟨(i 0).val / 4000, hN⟩
  have e4' : win3_2.index ⟨(i 0).val / 4000, hN⟩ (0 : Fin 2) = (i 0).val / 4000 := e4
  intro a
  match a with
  | ⟨0, _⟩ => show win3_2.index ⟨(i 0).val / 4000, hN⟩ (0 : Fin 2) * 4000 ≤ (i 0).val ∧ (i 0).val < win3_2.index ⟨(i 0).val / 4000, hN⟩ (0 : Fin 2) * 4000 + 4000; omega
  | ⟨1, _⟩ => show win3_2.index ⟨(i 0).val / 4000, hN⟩ (1 : Fin 2) * 16 ≤ (i 1).val ∧ (i 1).val < win3_2.index ⟨(i 0).val / 4000, hN⟩ (1 : Fin 2) * 16 + 16; omega

/-- THE REGION'S VALUE: whatever the arrays hold at entry, the result array ends at their bias add and relu. -/
theorem final (c : Dev nD) : (dat3 V c).arrAt 2 cfg3.N = res V c :=
  (dat3 V c).arrAt_eq_of_cover 2 (res V c) (fun t _ => flushed_eq V c t) cover

end Cert.KernelIdeal.BiasReluValue3

end
-- ==== Proof.Spec3.lean ====
/-
  One layer of the function both programs compute, in the host's own operations. The layer takes node features H, a
  weight matrix W, a bias b, and the edge list (destination ids, source ids, weights): it forms HW = H·W; gathers row
  `col e` of HW for every edge e (a negative id counted from the end); scales it by the edge's weight; adds the scaled
  rows into the rows named by the destination ids, starting from zero; adds the bias to every row; and takes the
  maximum with zero. This is the layer of widths 16 → 40.
-/
import proofs.«417788_j2594160246963_1_alg».proof.Proof.Gen.ReferenceIdeal
import Idealize.ShloMosaic.PureOps.Ideal

noncomputable section

namespace Cert.Spec3

open Idealize.ShloMosaic Cert.ReferenceIdeal Cert.ReferenceIdeal.Facts₀

/-- The aggregation: the weighted rows of `hw` gathered by source id and added up by destination id. -/
def agg (hw : FVec Ideal S100000x40 .f32) (row col : IVec S3200000 32) (w : FVec Ideal S3200000 .f32) : FVec Ideal S100000x40 .f32 :=
  Host.scatterAdd scatter_S100000x40_S3200000x1_S3200000x40_1_0_0_1 (broadcastInDim S100000x40 ![] bcast_S_S100000x40 (constant S_ .f32 0x00000000#32))
    (broadcastInDim S3200000x1 ![0] bcast_S3200000_S3200000x1_0 row)
    (mulf (Host.gather gather_S100000x40_S3200000x1_S3200000x40_1_0_n_n_0_1_140 hw
        (broadcastInDim S3200000x1 ![0] bcast_S3200000_S3200000x1_0
          (select (cmpi .slt col (broadcastInDim S3200000 ![] bcast_S_S3200000 (constantI S_ 32 0#32)))
            (addi col (broadcastInDim S3200000 ![] bcast_S_S3200000 (constantI S_ 32 100000#32))) col)))
      (broadcastInDim S3200000x40 ![0, 1] bcast_S3200000x1_S3200000x40_0_1 (broadcastInDim S3200000x1 ![0] bcast_S3200000_S3200000x1_0 w)))

/-- The bias add and relu, the bias given as a one-row array. -/
def biasRelu (a : FVec Ideal S100000x40 .f32) (b : FVec Ideal S1x40 .f32) : FVec Ideal S100000x40 .f32 :=
  maximumf (addf a (broadcastInDim S100000x40 ![0, 1] bcast_S1x40_S100000x40_0_1 b))
    (broadcastInDim S100000x40 ![] bcast_S_S100000x40 (constant S_ .f32 0x00000000#32))

/-- The layer. -/
def layer (h : FVec Ideal S100000x16 .f32) (wt : FVec Ideal S16x40 .f32) (b : FVec Ideal S40 .f32)
    (row col : IVec S3200000 32) (w : FVec Ideal S3200000 .f32) : FVec Ideal S100000x40 .f32 :=
  biasRelu (agg (Host.dotGeneral dot_S100000x16_S16x40_S100000x40_1_0_0_1_n_n none h wt) row col w)
    (broadcastInDim S1x40 ![1] bcast_S40_S1x40_1 b)

end Cert.Spec3

end
-- ==== Proof.BiasReluValue5.lean ====
/-
  The value of a bias-and-relu region. At each grid point the region adds a one-row array, repeated down the rows, to a
  block of 4000 rows of its first array and takes the maximum with zero, writing block `t` of the result. So whatever
  the two arrays hold when the region is entered, entry (r, j) of the result array ends at max(A(r, j) + B(0, j), 0):
  the host's bias add followed by its relu, spelt as the host spells them.
-/
import proofs.«417788_j2594160246963_1_alg».proof.Proof.Gen.KernelIdeal.Frame
import proofs.«417788_j2594160246963_1_alg».proof.Proof.Spec3
import Idealize.ShloMosaic.Lib.Pipeline.Value
import Idealize.ShloMosaic.Lib.ValueIdx
import Idealize.ShloMosaic.PureOps.Ideal.Laws

set_option maxRecDepth 16384

noncomputable section

namespace Cert.KernelIdeal.BiasReluValue5

open Cert.KernelIdeal Cert.KernelIdeal.Gen
open Idealize.ShloMosaic Idealize.ShloMosaic.TcCoe Idealize.ShloMosaic.ValueIdx Idealize.SL.Sem
open Idealize.ShloMosaic.Pipeline (Dat)

/-- One point's result at an entry of the block. -/
theorem pay_at (x0 : FVec Ideal S4000x40 .f32) (x1 : FVec Ideal S1x40 .f32) (p : Fin 4000) (q : Fin 40) :
    k5_pay1 (F := Ideal) x0 x1 (ix2 p q)
      = max (x0 (ix2 p q) + x1 (ix2 (0 : Fin 1) q)) (FloatOps.ofBits (F := Ideal) .f32 0x00000000#32) := by
  unfold k5_pay1
  show max (shapeCast S4000x40 x0 shapeCasts_S4000x40_S4000x40 (ix2 p q)
      + broadcastTo S4000x40 (shapeCast S1x40 x1 shapeCasts_S1x40_S1x40) broadcasts_S1x40_S4000x40 (ix2 p q)) _ = _
  rw [shapeCast_self, shapeCast_self]
  rw [broadcastTo_apply x1 broadcasts_S1x40_S4000x40 (ix2 p q) (ix2 (0 : Fin 1) q) (fun a => match a with
    | ⟨0, _⟩ => by show 0 = if (1 : Nat) = 1 then 0 else p.val; rw [if_pos rfl]
    | ⟨1, _⟩ => by show q.val = if (40 : Nat) = 1 then 0 else q.val; rw [if_neg (by decide)])]
  rfl

/-- The host's spelling at an entry. -/
theorem ref_at (A : FVec Ideal S100000x40 .f32) (B : FVec Ideal S1x40 .f32) (r : Fin 100000) (q : Fin 40) :
    Cert.Spec3.biasRelu A B (ix2 r q)
      = max (A (ix2 r q) + B (ix2 (0 : Fin 1) q)) (FloatOps.ofBits (F := Ideal) .f32 0x00000000#32) := by
  show max (A (ix2 r q) + broadcastInDim S100000x40 ![0, 1] Cert.ReferenceIdeal.Facts₀.bcast_S1x40_S100000x40_0_1 B (ix2 r q))
      (broadcastInDim S100000x40 ![] Cert.ReferenceIdeal.Facts₀.bcast_S_S100000x40 (constant (F := Ideal) S_ .f32 0x00000000#32) (ix2 r q)) = _
  rw [broadcastInDim_apply _ Cert.ReferenceIdeal.Facts₀.bcast_S1x40_S100000x40_0_1 B (ix2 r q) (ix2 (0 : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)]),
    broadcastInDim_apply _ Cert.ReferenceIdeal.Facts₀.bcast_S_S100000x40 (constant (F := Ideal) S_ .f32 0x00000000#32) (ix2 r q) ix0 (fun a => a.elim0)]
  rfl

variable (V : (c : Dev nD) → (b : Ref sig .tc) → Buf (Elt Ideal) ((c : Thread nD τ).loc b))

/-- The region's first array as it finds it. -/
abbrev aarr (c : Dev nD) : FVec Ideal S100000x40 .f32 := V c main_v27
/-- The region's one-row array as it finds it. -/
abbrev barr (c : Dev nD) : FVec Ideal S1x40 .f32 := V c main_v28
/-- What the result array ends at. -/
abbrev res (c : Dev nD) : FVec Ideal S100000x40 .f32 := Cert.Spec3.biasRelu (aarr V c) (barr V c)

theorem hz : (![0, 0] : Fin 2 → Nat) = fun _ => 0 := funext fun a => by fin_cases a <;> rfl

/-- The printed index maps over the grid: the first operand's and the result's blocks move together down the rows, the
    one-row operand's block is the whole array, and the result's block column is 0. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of the bias add and relu of the arrays as the region finds them. -/
theorem flushed_eq (c : Dev nD) (t : Fin cfg5.N) :
    (dat5 V c).flushed 2 t = ((cfg5.win 2).blk t).view.read (Elt Ideal) (res V c) := by
  show (cfg5.win 2).cut (grid5.coords t) ((dat5 V c).after 2 t) = _
  rw [after5_2]
  unfold out5_2
  rw [View.canon_unit_zero hz]
  simp only [View.ld_unit_zero (S := S4000x40) hz, View.ld_unit_zero (S := S1x40) hz]
  obtain ⟨e0, e1, e2, e3, e4, e5⟩ := idx_facts t
  funext j
  obtain ⟨p, q, rfl⟩ : ∃ (p : Fin 4000) (q : Fin 40), j = ix2 p q := ⟨j 0, j 1, eq_ix2 j⟩
  have ht : t.val < 25 := lt_of_lt_of_eq t.isLt N_5
  have hp : p.val < 4000 := p.isLt
  have hr : t.val * 4000 + p.val < 100000 := by omega
  have emb2 : ((cfg5.win 2).blk t).view.emb (ix2 p q) = ix2 (⟨t.val * 4000 + p.val, hr⟩ : Fin 100000) q := by
    funext a; apply Fin.ext
    match a with
    | ⟨0, _⟩ => show win5_2.index t (0 : Fin 2) * 4000 + 1 * p.val = t.val * 4000 + p.val; omega
    | ⟨1, _⟩ => show win5_2.index t (1 : Fin 2) * 40 + 1 * q.val = q.val; omega
  have emb0 : ((cfg5.win 0).blk t).view.emb (ix2 p q) = ix2 (⟨t.val * 4000 + p.val, hr⟩ : Fin 100000) q := by
    funext a; apply Fin.ext
    match a with
    | ⟨0, _⟩ => show win5_0.index t (0 : Fin 2) * 4000 + 1 * p.val = t.val * 4000 + p.val; omega
    | ⟨1, _⟩ => show win5_0.index t (1 : Fin 2) * 40 + 1 * q.val = q.val; omega
  have emb1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 40 + 1 * q.val = q.val; omega
  show k5_pay1 (F := Ideal) (iblk5 V c 0 t) (iblk5 V c 1 t) (ix2 p q) = res V c (((cfg5.win 2).blk t).view.emb (ix2 p q))
  refine (pay_at _ _ p q).trans ?_
  rw [emb2]
  refine Eq.trans ?_ (ref_at (aarr V c) (barr V c) ⟨t.val * 4000 + p.val, hr⟩ q).symm
  have h0 : iblk5 V c 0 t (ix2 p q) = aarr V c (ix2 (⟨t.val * 4000 + p.val, hr⟩ : Fin 100000) q) := by
    show V c main_v27 (((cfg5.win 0).blk t).view.emb (ix2 p q)) = V c main_v27 (ix2 (⟨t.val * 4000 + p.val, hr⟩ : Fin 100000) q)
    rw [emb0]
  have h1 : iblk5 V c 1 t (ix2 (0 : Fin 1) q) = barr V c (ix2 (0 : Fin 1) q) := by
    show V c main_v28 (((cfg5.win 1).blk t).view.emb (ix2 (0 : Fin 1) q)) = V c main_v28 (ix2 (0 : Fin 1) q)
    rw [emb1]
  rw [h0, h1]

/-- An index of the result array is in point `t`'s block iff each coordinate is in the block's range on its axis. -/
theorem mem_blk (t : Fin cfg5.N) (i : S100000x40.Idx) :
    i ∈ ((cfg5.win 2).blk t).view.set ↔ ∀ a : Fin 2, win5_2.index t a * S4000x40.size a ≤ (i a).val ∧ (i a).val < win5_2.index t a * S4000x40.size a + S4000x40.size a := by
  show i ∈ ((View.whole main_v29).slice (win5_2.rect t)).set ↔ _
  rw [View.set_slice_whole, Rect.mem_set_unit]
  exact Iff.rfl

/-- Every index of the result array lies in the block of the point its row belongs to: row `r` is in block `r / 4000`. -/
theorem cover (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : (i 0).val / 4000 < cfg5.N := lt_of_lt_of_eq (by omega : (i 0).val / 4000 < 25) N_5.symm
  refine ⟨⟨(i 0).val / 4000, hN⟩, flush5_2 _, ?_⟩
  rw [mem_blk]
  obtain ⟨e0, e1, e2, e3, e4, e5⟩ := idx_facts ⟨(i 0).val / 4000, hN⟩
  have e4' : win5_2.index ⟨(i 0).val / 4000, hN⟩ (0 : Fin 2) = (i 0).val / 4000 := e4
  intro a
  match a with
  | ⟨0, _⟩ => show win5_2.index ⟨(i 0).val / 4000, hN⟩ (0 : Fin 2) * 4000 ≤ (i 0).val ∧ (i 0).val < win5_2.index ⟨(i 0).val / 4000, hN⟩ (0 : Fin 2) * 4000 + 4000; omega
  | ⟨1, _⟩ => show win5_2.index ⟨(i 0).val / 4000, hN⟩ (1 : Fin 2) * 40 ≤ (i 1).val ∧ (i 1).val < win5_2.index ⟨(i 0).val / 4000, hN⟩ (1 : Fin 2) * 40 + 40; omega

/-- THE REGION'S VALUE: whatever the arrays hold at entry, the result array ends at their bias add and relu. -/
theorem final (c : Dev nD) : (dat5 V c).arrAt 2 cfg5.N = res V c :=
  (dat5 V c).arrAt_eq_of_cover 2 (res V c) (fun t _ => flushed_eq V c t) cover

end Cert.KernelIdeal.BiasReluValue5

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.Stretch1.lean ====
/-
  The host operations between a product region and the bias-and-relu region after it. From the product HW the region
  before left, they gather the rows named by the edge sources (through `take`, which would fill a row whose id is out of
  range, and never does when every id lies in [−100000, 100000)), scale each by its edge's weight and add them up by
  edge destination; and they lay the bias out as a one-row array. So the region after is entered with the layer's
  aggregation in its first array and the bias row in its second.
-/
import proofs.«417788_j2594160246963_1_alg».proof.Proof.Gen.KernelIdeal.Launch
import proofs.«417788_j2594160246963_1_alg».proof.Proof.Spec1
import proofs.«417788_j2594160246963_1_alg».proof.Proof.LibTakeFill
import Idealize.ShloMosaic.Lib.StableHlo.Run
import Idealize.ShloMosaic.Lib.Pipeline.Value

set_option maxRecDepth 16384

noncomputable section

namespace Cert.KernelIdeal.Stretch1

open Cert.KernelIdeal Cert.KernelIdeal.Gen
open Idealize.ShloMosaic Idealize.ShloMosaic.TcCoe Idealize.ShloMosaic.StableHlo Idealize.SL.Sem

/-- The source ids after the wrap of the negative ones, as a column. -/
abbrev wcol (col : IVec S3200000 32) : IVec S3200000x1 32 :=
  Cert.LibTakeFill.wrapCol bcast_S_S3200000 bcast_S3200000_S3200000x1_0 100000#32 col

/-- The kernel program's gather of the rows of `hw`: the gathered row where the wrapped id passes the range test, a fill
    value where it does not. -/
def takeK (hw : FVec Ideal S100000x32 .f32) (col : IVec S3200000 32) : FVec Ideal S3200000x32 .f32 :=
  select (broadcastInDim S3200000x32 ![0] bcast_S3200000_S3200000x32_0
      (Host.reduce IntOp.andi
        (andi (cmpi .sge (wcol col) (broadcastInDim S3200000x1 ![] bcast_S_S3200000x1 (constantI S_ 32 0#32)))
          (cmpi .sle (wcol col)
            (broadcastInDim S3200000x1 ![0, 1] bcast_S1x1_S3200000x1_0_1
              (broadcastInDim S1x1 ![1] bcast_S1_S1x1_1 (constantI S1 32 99999#32)))))
        (constantI S_ 1 1#1) reducesTo_S3200000x1_S3200000_d1 h_S_))
    (Host.gather gather_S100000x32_S3200000x1_S3200000x32_1_0_n_n_0_1_132 hw (wcol col))
    (broadcastInDim S3200000x32 ![] bcast_S_S3200000x32 (constant S_ .f32 0x7FC00000#32))

/-- With every source id in [−100000, 100000) the fill is never read: the kernel program's gather is the plain gather. -/
theorem takeK_eq (hw : FVec Ideal S100000x32 .f32) (col : IVec S3200000 32)
    (hcol : ∀ e : S3200000.Idx, -(100000 : ℤ) ≤ (col e).toInt ∧ (col e).toInt < (100000 : ℤ)) :
    takeK hw col = Host.gather gather_S100000x32_S3200000x1_S3200000x32_1_0_n_n_0_1_132 hw (wcol col) :=
  Cert.LibTakeFill.take_fill_eq 100000 100000#32 99999#32 bcast_S_S3200000 bcast_S3200000_S3200000x1_0 bcast_S_S3200000x1
    bcast_S1_S1x1_1 bcast_S1x1_S3200000x1_0_1 reducesTo_S3200000x1_S3200000_d1 h_S_ bcast_S3200000_S3200000x32_0
    (by decide) (by decide) rfl rfl col hcol _ _

/-- A vector laid out as a one-row array by a reshape is the same one-row array the host makes by a broadcast. -/
theorem row_of_vec (b : FVec Ideal S32 .f32) :
    shapeCast S1x32 b shapeCasts_S32_S1x32
      = broadcastInDim S1x32 ![1] Cert.ReferenceIdeal.Facts₀.bcast_S32_S1x32_1 b := by
  funext j
  have e1 : shapeCast S1x32 b shapeCasts_S32_S1x32 j = b (fun a => j a.succ) :=
    shapeCast_addUnit_apply (![32] : Fin 1 → Nat) b shapeCasts_S32_S1x32 j
  have e2 : broadcastInDim S1x32 ![1] Cert.ReferenceIdeal.Facts₀.bcast_S32_S1x32_1 b j = b (fun a => j a.succ) :=
    broadcastInDim_apply _ Cert.ReferenceIdeal.Facts₀.bcast_S32_S1x32_1 b j (fun a => j a.succ) (fun a => match a with
      | ⟨0, _⟩ => by show (j 1).val = if (32 : Nat) = 1 then 0 else (j 1).val; rw [if_neg (by decide)])
  rw [e1, e2]

/-- Two transports there and back are the identity, whatever the two types are. -/
theorem cast_cast_self {α β : Type} (h₁ : α = β) (h₂ : β = α) (v : α) : cast h₂ (cast h₁ v) = v := by
  subst h₁; rfl

/-- The kernel program's spelling of the aggregation (its own shape records) is the host's. -/
theorem agg_spell (hw : FVec Ideal S100000x32 .f32) (row col : IVec S3200000 32) (w : FVec Ideal S3200000 .f32) :
    Host.scatterAdd (F := Ideal) scatter_S100000x32_S3200000x1_S3200000x32_1_0_0_1
        (broadcastInDim S100000x32 ![] bcast_S_S100000x32 (constant (F := Ideal) S_ .f32 0x00000000#32))
        (broadcastInDim S3200000x1 ![0] bcast_S3200000_S3200000x1_0 row)
        (mulf (Host.gather gather_S100000x32_S3200000x1_S3200000x32_1_0_n_n_0_1_132 hw (wcol col))
          (broadcastInDim S3200000x32 ![0, 1] bcast_S3200000x1_S3200000x32_0_1
            (broadcastInDim S3200000x1 ![0] bcast_S3200000_S3200000x1_0 w)))
      = Cert.Spec1.agg hw row col w := rfl

set_option maxHeartbeats 1000000 in
/-- The inner stretch (the outlined `take`) leaves the kernel program's gather in its result buffer: the transports
    between each buffer's type and its value's type come in pairs and cancel. -/
theorem take_value (W : Valuation τ sig (Elt Ideal)) :
    StableHlo.after (hostOps1 (F := Ideal)) W (Proc.devRef .tc main_v1)
      = takeK (W (Proc.devRef .tc main_v0)) (W (Proc.devRef .tc main_arg2)) := by
  after_results_simp
  simp only [TRef.ofBuf, TRef.toBuf, cast_cast_self]
  simp only [cast_eq]
  rfl

set_option maxHeartbeats 1000000 in
/-- The inner stretch writes none of the edge destinations, the edge weights or the bias. -/
theorem take_keeps (W : Valuation τ sig (Elt Ideal)) :
    StableHlo.after (hostOps1 (F := Ideal)) W (Proc.devRef .tc main_arg1) = W (Proc.devRef .tc main_arg1)
    ∧ StableHlo.after (hostOps1 (F := Ideal)) W (Proc.devRef .tc main_arg3) = W (Proc.devRef .tc main_arg3)
    ∧ StableHlo.after (hostOps1 (F := Ideal)) W (Proc.devRef .tc main_arg5) = W (Proc.devRef .tc main_arg5) := by
  refine ⟨?_, ?_, ?_⟩ <;> after_results_simp

set_option maxHeartbeats 1000000 in
/-- The outer stretch: the gathered rows scaled by the edge weights and added up by edge destination. -/
theorem outer_value (W : Valuation τ sig (Elt Ideal)) :
    StableHlo.after (hostOps1_1 (F := Ideal)) W (Proc.devRef .tc main_v7)
      = (Host.scatterAdd (F := Ideal) scatter_S100000x32_S3200000x1_S3200000x32_1_0_0_1
          (broadcastInDim S100000x32 ![] bcast_S_S100000x32 (constant (F := Ideal) S_ .f32 0x00000000#32))
          (broadcastInDim S3200000x1 ![0] bcast_S3200000_S3200000x1_0 (W (Proc.devRef .tc main_arg1)))
          (mulf (W (Proc.devRef .tc main_v1))
            (broadcastInDim S3200000x32 ![0, 1] bcast_S3200000x1_S3200000x32_0_1
              (broadcastInDim S3200000x1 ![0] bcast_S3200000_S3200000x1_0 (W (Proc.devRef .tc main_arg3))))) : FVec Ideal S100000x32 .f32) := by
  after_results_simp

/-- The aggregation buffer after both stretches, from any contents `W` whose source ids are in range. -/
theorem agg_value (W : Valuation τ sig (Elt Ideal))
    (hcol : ∀ e : S3200000.Idx, -(100000 : ℤ) ≤ ((W (Proc.devRef .tc main_arg2) : IVec S3200000 32) e).toInt
      ∧ ((W (Proc.devRef .tc main_arg2) : IVec S3200000 32) e).toInt < (100000 : ℤ)) :
    StableHlo.after (hostOps1_1 (F := Ideal)) (StableHlo.after (hostOps1 (F := Ideal)) W) (Proc.devRef .tc main_v7)
      = Cert.Spec1.agg (W (Proc.devRef .tc main_v0)) (W (Proc.devRef .tc main_arg1)) (W (Proc.devRef .tc main_arg2)) (W (Proc.devRef .tc main_arg3)) := by
  rw [outer_value, take_value, (take_keeps W).1, (take_keeps W).2.1, takeK_eq _ _ hcol]
  exact agg_spell _ _ _ _

set_option maxHeartbeats 1000000 in
/-- The bias row after both stretches, from any contents `W`. -/
theorem bias_value (W : Valuation τ sig (Elt Ideal)) :
    StableHlo.after (hostOps1_1 (F := Ideal)) (StableHlo.after (hostOps1 (F := Ideal)) W) (Proc.devRef .tc main_v8)
      = broadcastInDim S1x32 ![1] Cert.ReferenceIdeal.Facts₀.bcast_S32_S1x32_1 (W (Proc.devRef .tc main_arg5)) := by
  have h : StableHlo.after (hostOps1_1 (F := Ideal)) (StableHlo.after (hostOps1 (F := Ideal)) W) (Proc.devRef .tc main_v8)
      = shapeCast S1x32 (W (Proc.devRef .tc main_arg5)) shapeCasts_S32_S1x32 := by
    after_results_simp
    rfl
  rw [h]
  exact row_of_vec _

end Cert.KernelIdeal.Stretch1

end
-- ==== Proof.Stretch3.lean ====
/-
  The host operations between a product region and the bias-and-relu region after it. From the product HW the region
  before left, they gather the rows named by the edge sources (through `take`, which would fill a row whose id is out of
  range, and never does when every id lies in [−100000, 100000)), scale each by its edge's weight and add them up by
  edge destination; and they lay the bias out as a one-row array. So the region after is entered with the layer's
  aggregation in its first array and the bias row in its second.
-/
import proofs.«417788_j2594160246963_1_alg».proof.Proof.Gen.KernelIdeal.Launch
import proofs.«417788_j2594160246963_1_alg».proof.Proof.Spec2
import proofs.«417788_j2594160246963_1_alg».proof.Proof.LibTakeFill
import Idealize.ShloMosaic.Lib.StableHlo.Run
import Idealize.ShloMosaic.Lib.Pipeline.Value

set_option maxRecDepth 16384

noncomputable section

namespace Cert.KernelIdeal.Stretch3

open Cert.KernelIdeal Cert.KernelIdeal.Gen
open Idealize.ShloMosaic Idealize.ShloMosaic.TcCoe Idealize.ShloMosaic.StableHlo Idealize.SL.Sem

/-- The source ids after the wrap of the negative ones, as a column. -/
abbrev wcol (col : IVec S3200000 32) : IVec S3200000x1 32 :=
  Cert.LibTakeFill.wrapCol bcast_S_S3200000 bcast_S3200000_S3200000x1_0 100000#32 col

/-- The kernel program's gather of the rows of `hw`: the gathered row where the wrapped id passes the range test, a fill
    value where it does not. -/
def takeK (hw : FVec Ideal S100000x16 .f32) (col : IVec S3200000 32) : FVec Ideal S3200000x16 .f32 :=
  select (broadcastInDim S3200000x16 ![0] bcast_S3200000_S3200000x16_0
      (Host.reduce IntOp.andi
        (andi (cmpi .sge (wcol col) (broadcastInDim S3200000x1 ![] bcast_S_S3200000x1 (constantI S_ 32 0#32)))
          (cmpi .sle (wcol col)
            (broadcastInDim S3200000x1 ![0, 1] bcast_S1x1_S3200000x1_0_1
              (broadcastInDim S1x1 ![1] bcast_S1_S1x1_1 (constantI S1 32 99999#32)))))
        (constantI S_ 1 1#1) reducesTo_S3200000x1_S3200000_d1 h_S_))
    (Host.gather gather_S100000x16_S3200000x1_S3200000x16_1_0_n_n_0_1_116 hw (wcol col))
    (broadcastInDim S3200000x16 ![] bcast_S_S3200000x16 (constant S_ .f32 0x7FC00000#32))

/-- With every source id in [−100000, 100000) the fill is never read: the kernel program's gather is the plain gather. -/
theorem takeK_eq (hw : FVec Ideal S100000x16 .f32) (col : IVec S3200000 32)
    (hcol : ∀ e : S3200000.Idx, -(100000 : ℤ) ≤ (col e).toInt ∧ (col e).toInt < (100000 : ℤ)) :
    takeK hw col = Host.gather gather_S100000x16_S3200000x1_S3200000x16_1_0_n_n_0_1_116 hw (wcol col) :=
  Cert.LibTakeFill.take_fill_eq 100000 100000#32 99999#32 bcast_S_S3200000 bcast_S3200000_S3200000x1_0 bcast_S_S3200000x1
    bcast_S1_S1x1_1 bcast_S1x1_S3200000x1_0_1 reducesTo_S3200000x1_S3200000_d1 h_S_ bcast_S3200000_S3200000x16_0
    (by decide) (by decide) rfl rfl col hcol _ _

/-- A vector laid out as a one-row array by a reshape is the same one-row array the host makes by a broadcast. -/
theorem row_of_vec (b : FVec Ideal S16 .f32) :
    shapeCast S1x16 b shapeCasts_S16_S1x16
      = broadcastInDim S1x16 ![1] Cert.ReferenceIdeal.Facts₀.bcast_S16_S1x16_1 b := by
  funext j
  have e1 : shapeCast S1x16 b shapeCasts_S16_S1x16 j = b (fun a => j a.succ) :=
    shapeCast_addUnit_apply (![16] : Fin 1 → Nat) b shapeCasts_S16_S1x16 j
  have e2 : broadcastInDim S1x16 ![1] Cert.ReferenceIdeal.Facts₀.bcast_S16_S1x16_1 b j = b (fun a => j a.succ) :=
    broadcastInDim_apply _ Cert.ReferenceIdeal.Facts₀.bcast_S16_S1x16_1 b j (fun a => j a.succ) (fun a => match a with
      | ⟨0, _⟩ => by show (j 1).val = if (16 : Nat) = 1 then 0 else (j 1).val; rw [if_neg (by decide)])
  rw [e1, e2]

/-- Two transports there and back are the identity, whatever the two types are. -/
theorem cast_cast_self {α β : Type} (h₁ : α = β) (h₂ : β = α) (v : α) : cast h₂ (cast h₁ v) = v := by
  subst h₁; rfl

/-- The kernel program's spelling of the aggregation (its own shape records) is the host's. -/
theorem agg_spell (hw : FVec Ideal S100000x16 .f32) (row col : IVec S3200000 32) (w : FVec Ideal S3200000 .f32) :
    Host.scatterAdd (F := Ideal) scatter_S100000x16_S3200000x1_S3200000x16_1_0_0_1
        (broadcastInDim S100000x16 ![] bcast_S_S100000x16 (constant (F := Ideal) S_ .f32 0x00000000#32))
        (broadcastInDim S3200000x1 ![0] bcast_S3200000_S3200000x1_0 row)
        (mulf (Host.gather gather_S100000x16_S3200000x1_S3200000x16_1_0_n_n_0_1_116 hw (wcol col))
          (broadcastInDim S3200000x16 ![0, 1] bcast_S3200000x1_S3200000x16_0_1
            (broadcastInDim S3200000x1 ![0] bcast_S3200000_S3200000x1_0 w)))
      = Cert.Spec2.agg hw row col w := rfl

set_option maxHeartbeats 1000000 in
/-- The inner stretch (the outlined `take`) leaves the kernel program's gather in its result buffer: the transports
    between each buffer's type and its value's type come in pairs and cancel. -/
theorem take_value (W : Valuation τ sig (Elt Ideal)) :
    StableHlo.after (hostOps3 (F := Ideal)) W (Proc.devRef .tc main_v11)
      = takeK (W (Proc.devRef .tc main_v10)) (W (Proc.devRef .tc main_arg2)) := by
  after_results_simp
  simp only [TRef.ofBuf, TRef.toBuf, cast_cast_self]
  simp only [cast_eq]
  rfl

set_option maxHeartbeats 1000000 in
/-- The inner stretch writes none of the edge destinations, the edge weights or the bias. -/
theorem take_keeps (W : Valuation τ sig (Elt Ideal)) :
    StableHlo.after (hostOps3 (F := Ideal)) W (Proc.devRef .tc main_arg1) = W (Proc.devRef .tc main_arg1)
    ∧ StableHlo.after (hostOps3 (F := Ideal)) W (Proc.devRef .tc main_arg3) = W (Proc.devRef .tc main_arg3)
    ∧ StableHlo.after (hostOps3 (F := Ideal)) W (Proc.devRef .tc main_arg7) = W (Proc.devRef .tc main_arg7) := by
  refine ⟨?_, ?_, ?_⟩ <;> after_results_simp

set_option maxHeartbeats 1000000 in
/-- The outer stretch: the gathered rows scaled by the edge weights and added up by edge destination. -/
theorem outer_value (W : Valuation τ sig (Elt Ideal)) :
    StableHlo.after (hostOps3_1 (F := Ideal)) W (Proc.devRef .tc main_v17)
      = (Host.scatterAdd (F := Ideal) scatter_S100000x16_S3200000x1_S3200000x16_1_0_0_1
          (broadcastInDim S100000x16 ![] bcast_S_S100000x16 (constant (F := Ideal) S_ .f32 0x00000000#32))
          (broadcastInDim S3200000x1 ![0] bcast_S3200000_S3200000x1_0 (W (Proc.devRef .tc main_arg1)))
          (mulf (W (Proc.devRef .tc main_v11))
            (broadcastInDim S3200000x16 ![0, 1] bcast_S3200000x1_S3200000x16_0_1
              (broadcastInDim S3200000x1 ![0] bcast_S3200000_S3200000x1_0 (W (Proc.devRef .tc main_arg3))))) : FVec Ideal S100000x16 .f32) := by
  after_results_simp

/-- The aggregation buffer after both stretches, from any contents `W` whose source ids are in range. -/
theorem agg_value (W : Valuation τ sig (Elt Ideal))
    (hcol : ∀ e : S3200000.Idx, -(100000 : ℤ) ≤ ((W (Proc.devRef .tc main_arg2) : IVec S3200000 32) e).toInt
      ∧ ((W (Proc.devRef .tc main_arg2) : IVec S3200000 32) e).toInt < (100000 : ℤ)) :
    StableHlo.after (hostOps3_1 (F := Ideal)) (StableHlo.after (hostOps3 (F := Ideal)) W) (Proc.devRef .tc main_v17)
      = Cert.Spec2.agg (W (Proc.devRef .tc main_v10)) (W (Proc.devRef .tc main_arg1)) (W (Proc.devRef .tc main_arg2)) (W (Proc.devRef .tc main_arg3)) := by
  rw [outer_value, take_value, (take_keeps W).1, (take_keeps W).2.1, takeK_eq _ _ hcol]
  exact agg_spell _ _ _ _

set_option maxHeartbeats 1000000 in
/-- The bias row after both stretches, from any contents `W`. -/
theorem bias_value (W : Valuation τ sig (Elt Ideal)) :
    StableHlo.after (hostOps3_1 (F := Ideal)) (StableHlo.after (hostOps3 (F := Ideal)) W) (Proc.devRef .tc main_v18)
      = broadcastInDim S1x16 ![1] Cert.ReferenceIdeal.Facts₀.bcast_S16_S1x16_1 (W (Proc.devRef .tc main_arg7)) := by
  have h : StableHlo.after (hostOps3_1 (F := Ideal)) (StableHlo.after (hostOps3 (F := Ideal)) W) (Proc.devRef .tc main_v18)
      = shapeCast S1x16 (W (Proc.devRef .tc main_arg7)) shapeCasts_S16_S1x16 := by
    after_results_simp
    rfl
  rw [h]
  exact row_of_vec _

end Cert.KernelIdeal.Stretch3

end
-- ==== Proof.Stretch5.lean ====
/-
  The host operations between a product region and the bias-and-relu region after it. From the product HW the region
  before left, they gather the rows named by the edge sources (through `take`, which would fill a row whose id is out of
  range, and never does when every id lies in [−100000, 100000)), scale each by its edge's weight and add them up by
  edge destination; and they lay the bias out as a one-row array. So the region after is entered with the layer's
  aggregation in its first array and the bias row in its second.
-/
import proofs.«417788_j2594160246963_1_alg».proof.Proof.Gen.KernelIdeal.Launch
import proofs.«417788_j2594160246963_1_alg».proof.Proof.Spec3
import proofs.«417788_j2594160246963_1_alg».proof.Proof.LibTakeFill
import Idealize.ShloMosaic.Lib.StableHlo.Run
import Idealize.ShloMosaic.Lib.Pipeline.Value

set_option maxRecDepth 16384

noncomputable section

namespace Cert.KernelIdeal.Stretch5

open Cert.KernelIdeal Cert.KernelIdeal.Gen
open Idealize.ShloMosaic Idealize.ShloMosaic.TcCoe Idealize.ShloMosaic.StableHlo Idealize.SL.Sem

/-- The source ids after the wrap of the negative ones, as a column. -/
abbrev wcol (col : IVec S3200000 32) : IVec S3200000x1 32 :=
  Cert.LibTakeFill.wrapCol bcast_S_S3200000 bcast_S3200000_S3200000x1_0 100000#32 col

/-- The kernel program's gather of the rows of `hw`: the gathered row where the wrapped id passes the range test, a fill
    value where it does not. -/
def takeK (hw : FVec Ideal S100000x40 .f32) (col : IVec S3200000 32) : FVec Ideal S3200000x40 .f32 :=
  select (broadcastInDim S3200000x40 ![0] bcast_S3200000_S3200000x40_0
      (Host.reduce IntOp.andi
        (andi (cmpi .sge (wcol col) (broadcastInDim S3200000x1 ![] bcast_S_S3200000x1 (constantI S_ 32 0#32)))
          (cmpi .sle (wcol col)
            (broadcastInDim S3200000x1 ![0, 1] bcast_S1x1_S3200000x1_0_1
              (broadcastInDim S1x1 ![1] bcast_S1_S1x1_1 (constantI S1 32 99999#32)))))
        (constantI S_ 1 1#1) reducesTo_S3200000x1_S3200000_d1 h_S_))
    (Host.gather gather_S100000x40_S3200000x1_S3200000x40_1_0_n_n_0_1_140 hw (wcol col))
    (broadcastInDim S3200000x40 ![] bcast_S_S3200000x40 (constant S_ .f32 0x7FC00000#32))

/-- With every source id in [−100000, 100000) the fill is never read: the kernel program's gather is the plain gather. -/
theorem takeK_eq (hw : FVec Ideal S100000x40 .f32) (col : IVec S3200000 32)
    (hcol : ∀ e : S3200000.Idx, -(100000 : ℤ) ≤ (col e).toInt ∧ (col e).toInt < (100000 : ℤ)) :
    takeK hw col = Host.gather gather_S100000x40_S3200000x1_S3200000x40_1_0_n_n_0_1_140 hw (wcol col) :=
  Cert.LibTakeFill.take_fill_eq 100000 100000#32 99999#32 bcast_S_S3200000 bcast_S3200000_S3200000x1_0 bcast_S_S3200000x1
    bcast_S1_S1x1_1 bcast_S1x1_S3200000x1_0_1 reducesTo_S3200000x1_S3200000_d1 h_S_ bcast_S3200000_S3200000x40_0
    (by decide) (by decide) rfl rfl col hcol _ _

/-- A vector laid out as a one-row array by a reshape is the same one-row array the host makes by a broadcast. -/
theorem row_of_vec (b : FVec Ideal S40 .f32) :
    shapeCast S1x40 b shapeCasts_S40_S1x40
      = broadcastInDim S1x40 ![1] Cert.ReferenceIdeal.Facts₀.bcast_S40_S1x40_1 b := by
  funext j
  have e1 : shapeCast S1x40 b shapeCasts_S40_S1x40 j = b (fun a => j a.succ) :=
    shapeCast_addUnit_apply (![40] : Fin 1 → Nat) b shapeCasts_S40_S1x40 j
  have e2 : broadcastInDim S1x40 ![1] Cert.ReferenceIdeal.Facts₀.bcast_S40_S1x40_1 b j = b (fun a => j a.succ) :=
    broadcastInDim_apply _ Cert.ReferenceIdeal.Facts₀.bcast_S40_S1x40_1 b j (fun a => j a.succ) (fun a => match a with
      | ⟨0, _⟩ => by show (j 1).val = if (40 : Nat) = 1 then 0 else (j 1).val; rw [if_neg (by decide)])
  rw [e1, e2]

/-- Two transports there and back are the identity, whatever the two types are. -/
theorem cast_cast_self {α β : Type} (h₁ : α = β) (h₂ : β = α) (v : α) : cast h₂ (cast h₁ v) = v := by
  subst h₁; rfl

/-- The kernel program's spelling of the aggregation (its own shape records) is the host's. -/
theorem agg_spell (hw : FVec Ideal S100000x40 .f32) (row col : IVec S3200000 32) (w : FVec Ideal S3200000 .f32) :
    Host.scatterAdd (F := Ideal) scatter_S100000x40_S3200000x1_S3200000x40_1_0_0_1
        (broadcastInDim S100000x40 ![] bcast_S_S100000x40 (constant (F := Ideal) S_ .f32 0x00000000#32))
        (broadcastInDim S3200000x1 ![0] bcast_S3200000_S3200000x1_0 row)
        (mulf (Host.gather gather_S100000x40_S3200000x1_S3200000x40_1_0_n_n_0_1_140 hw (wcol col))
          (broadcastInDim S3200000x40 ![0, 1] bcast_S3200000x1_S3200000x40_0_1
            (broadcastInDim S3200000x1 ![0] bcast_S3200000_S3200000x1_0 w)))
      = Cert.Spec3.agg hw row col w := rfl

set_option maxHeartbeats 1000000 in
/-- The inner stretch (the outlined `take`) leaves the kernel program's gather in its result buffer: the transports
    between each buffer's type and its value's type come in pairs and cancel. -/
theorem take_value (W : Valuation τ sig (Elt Ideal)) :
    StableHlo.after (hostOps5 (F := Ideal)) W (Proc.devRef .tc main_v21)
      = takeK (W (Proc.devRef .tc main_v20)) (W (Proc.devRef .tc main_arg2)) := by
  after_results_simp
  simp only [TRef.ofBuf, TRef.toBuf, cast_cast_self]
  simp only [cast_eq]
  rfl

set_option maxHeartbeats 1000000 in
/-- The inner stretch writes none of the edge destinations, the edge weights or the bias. -/
theorem take_keeps (W : Valuation τ sig (Elt Ideal)) :
    StableHlo.after (hostOps5 (F := Ideal)) W (Proc.devRef .tc main_arg1) = W (Proc.devRef .tc main_arg1)
    ∧ StableHlo.after (hostOps5 (F := Ideal)) W (Proc.devRef .tc main_arg3) = W (Proc.devRef .tc main_arg3)
    ∧ StableHlo.after (hostOps5 (F := Ideal)) W (Proc.devRef .tc main_arg9) = W (Proc.devRef .tc main_arg9) := by
  refine ⟨?_, ?_, ?_⟩ <;> after_results_simp

set_option maxHeartbeats 1000000 in
/-- The outer stretch: the gathered rows scaled by the edge weights and added up by edge destination. -/
theorem outer_value (W : Valuation τ sig (Elt Ideal)) :
    StableHlo.after (hostOps5_1 (F := Ideal)) W (Proc.devRef .tc main_v27)
      = (Host.scatterAdd (F := Ideal) scatter_S100000x40_S3200000x1_S3200000x40_1_0_0_1
          (broadcastInDim S100000x40 ![] bcast_S_S100000x40 (constant (F := Ideal) S_ .f32 0x00000000#32))
          (broadcastInDim S3200000x1 ![0] bcast_S3200000_S3200000x1_0 (W (Proc.devRef .tc main_arg1)))
          (mulf (W (Proc.devRef .tc main_v21))
            (broadcastInDim S3200000x40 ![0, 1] bcast_S3200000x1_S3200000x40_0_1
              (broadcastInDim S3200000x1 ![0] bcast_S3200000_S3200000x1_0 (W (Proc.devRef .tc main_arg3))))) : FVec Ideal S100000x40 .f32) := by
  after_results_simp

/-- The aggregation buffer after both stretches, from any contents `W` whose source ids are in range. -/
theorem agg_value (W : Valuation τ sig (Elt Ideal))
    (hcol : ∀ e : S3200000.Idx, -(100000 : ℤ) ≤ ((W (Proc.devRef .tc main_arg2) : IVec S3200000 32) e).toInt
      ∧ ((W (Proc.devRef .tc main_arg2) : IVec S3200000 32) e).toInt < (100000 : ℤ)) :
    StableHlo.after (hostOps5_1 (F := Ideal)) (StableHlo.after (hostOps5 (F := Ideal)) W) (Proc.devRef .tc main_v27)
      = Cert.Spec3.agg (W (Proc.devRef .tc main_v20)) (W (Proc.devRef .tc main_arg1)) (W (Proc.devRef .tc main_arg2)) (W (Proc.devRef .tc main_arg3)) := by
  rw [outer_value, take_value, (take_keeps W).1, (take_keeps W).2.1, takeK_eq _ _ hcol]
  exact agg_spell _ _ _ _

set_option maxHeartbeats 1000000 in
/-- The bias row after both stretches, from any contents `W`. -/
theorem bias_value (W : Valuation τ sig (Elt Ideal)) :
    StableHlo.after (hostOps5_1 (F := Ideal)) (StableHlo.after (hostOps5 (F := Ideal)) W) (Proc.devRef .tc main_v28)
      = broadcastInDim S1x40 ![1] Cert.ReferenceIdeal.Facts₀.bcast_S40_S1x40_1 (W (Proc.devRef .tc main_arg9)) := by
  have h : StableHlo.after (hostOps5_1 (F := Ideal)) (StableHlo.after (hostOps5 (F := Ideal)) W) (Proc.devRef .tc main_v28)
      = shapeCast S1x40 (W (Proc.devRef .tc main_arg9)) shapeCasts_S40_S1x40 := by
    after_results_simp
    rfl
  rw [h]
  exact row_of_vec _

end Cert.KernelIdeal.Stretch5

end
-- ==== Proof.KernelValue.lean ====
/-
  The kernel program's result, read off its run. The run passes thirteen segment boundaries; at each, the buffers hold a
  fold of the launch memory through the host stretches and the regions before it. Followed layer by layer: the product
  region leaves H·W; the host stretch after it leaves the aggregation of the weighted gathered rows, and the bias row;
  the bias-and-relu region leaves the layer's output, which is the next layer's input. After the third layer the result
  buffer holds the three layers composed, of the launch contents of the ten argument arrays — provided every edge-source
  id lies in [−100000, 100000), so that no gathered row is ever filled.
-/
import proofs.«417788_j2594160246963_1_alg».proof.Proof.Keep
import proofs.«417788_j2594160246963_1_alg».proof.Proof.MatmulValue0
import proofs.«417788_j2594160246963_1_alg».proof.Proof.MatmulValue2
import proofs.«417788_j2594160246963_1_alg».proof.Proof.MatmulValue4
import proofs.«417788_j2594160246963_1_alg».proof.Proof.BiasReluValue1
import proofs.«417788_j2594160246963_1_alg».proof.Proof.BiasReluValue3
import proofs.«417788_j2594160246963_1_alg».proof.Proof.BiasReluValue5
import proofs.«417788_j2594160246963_1_alg».proof.Proof.Stretch1
import proofs.«417788_j2594160246963_1_alg».proof.Proof.Stretch3
import proofs.«417788_j2594160246963_1_alg».proof.Proof.Stretch5

set_option maxRecDepth 16384

noncomputable section

namespace Cert.KernelIdeal.KernelValue

open Cert.KernelIdeal Cert.KernelIdeal.Gen Cert.KernelIdeal.Keep
open Idealize.ShloMosaic Idealize.ShloMosaic.TcCoe Idealize.SL.Sem

variable (m : (ℓ : Loc nD τ sig) → Buf (Elt Ideal) ℓ) (ρ : Dev nD → PrngReg) (c : Dev nD)

/-- The argument arrays at launch, by what they are: node features, edge destinations, edge sources, edge weights, and
    the three layers' weights and biases. -/
abbrev x : FVec Ideal S100000x512 .f32 := m ((c : Thread nD τ).loc main_arg0)
abbrev erow : IVec S3200000 32 := m ((c : Thread nD τ).loc main_arg1)
abbrev ecol : IVec S3200000 32 := m ((c : Thread nD τ).loc main_arg2)
abbrev ew : FVec Ideal S3200000 .f32 := m ((c : Thread nD τ).loc main_arg3)
abbrev w0 : FVec Ideal S512x32 .f32 := m ((c : Thread nD τ).loc main_arg4)
abbrev b0 : FVec Ideal S32 .f32 := m ((c : Thread nD τ).loc main_arg5)
abbrev w1 : FVec Ideal S32x16 .f32 := m ((c : Thread nD τ).loc main_arg6)
abbrev b1 : FVec Ideal S16 .f32 := m ((c : Thread nD τ).loc main_arg7)
abbrev w2 : FVec Ideal S16x40 .f32 := m ((c : Thread nD τ).loc main_arg8)
abbrev b2 : FVec Ideal S40 .f32 := m ((c : Thread nD τ).loc main_arg9)

/-- The first layer's output. -/
def H1 : FVec Ideal S100000x32 .f32 := Cert.Spec1.layer (x m c) (w0 m c) (b0 m c) (erow m c) (ecol m c) (ew m c)
/-- The second layer's output. -/
def H2 : FVec Ideal S100000x16 .f32 := Cert.Spec2.layer (H1 m c) (w1 m c) (b1 m c) (erow m c) (ecol m c) (ew m c)
/-- The third layer's output: the network's result. -/
def H3 : FVec Ideal S100000x40 .f32 := Cert.Spec3.layer (H2 m c) (w2 m c) (b2 m c) (erow m c) (ecol m c) (ew m c)

/-- Every edge-source id lies in [−100000, 100000): what the precondition's last conjunct says. -/
abbrev ColInRange : Prop := ∀ e : S3200000.Idx, -(100000 : ℤ) ≤ (ecol m c e).toInt ∧ (ecol m c e).toInt < (100000 : ℤ)

/-! ## Layer 1 -/

/-- After region 0 the product buffer holds x·W0. -/
theorem at_W1_v0 : W1 m ρ c (Proc.devRef .tc main_v0)
    = Host.dotGeneral (F := Ideal) Cert.ReferenceIdeal.dot_S100000x512_S512x32_S100000x32_1_0_0_1_n_n none (x m c) (w0 m c) :=
  (W1_arr m ρ c 2).trans (Cert.KernelIdeal.MatmulValue0.final (V0 m ρ) c)

/-- At region 1's entry its first array holds the layer's aggregation. -/
theorem at_W3_v7 (hcol : ColInRange m c) : W3 m ρ c (Proc.devRef .tc main_v7)
    = Cert.Spec1.agg (Host.dotGeneral (F := Ideal) Cert.ReferenceIdeal.dot_S100000x512_S512x32_S100000x32_1_0_0_1_n_n none (x m c) (w0 m c)) (erow m c) (ecol m c) (ew m c) := by
  have h := Cert.KernelIdeal.Stretch1.agg_value (W1 m ρ c) (by rw [at_W1 m ρ c main_arg2 isArg2]; exact hcol)
  rw [at_W1_v0 m ρ c, at_W1 m ρ c main_arg1 isArg1, at_W1 m ρ c main_arg2 isArg2, at_W1 m ρ c main_arg3 isArg3] at h
  exact h

/-- At region 1's entry its second array holds the bias row. -/
theorem at_W3_v8 : W3 m ρ c (Proc.devRef .tc main_v8)
    = broadcastInDim S1x32 ![1] Cert.ReferenceIdeal.Facts₀.bcast_S32_S1x32_1 (b0 m c) := by
  have h := Cert.KernelIdeal.Stretch1.bias_value (W1 m ρ c)
  rw [at_W1 m ρ c main_arg5 isArg5] at h
  exact h

/-- After region 1 its result buffer holds the first layer's output. -/
theorem at_W4_v9 (hcol : ColInRange m c) : W4 m ρ c (Proc.devRef .tc main_v9) = H1 m c := by
  refine (W4_arr m ρ c 2).trans ((Cert.KernelIdeal.BiasReluValue1.final (V3 m ρ) c).trans ?_)
  show Cert.Spec1.biasRelu (W3 m ρ c (Proc.devRef .tc main_v7)) (W3 m ρ c (Proc.devRef .tc main_v8)) = _
  rw [at_W3_v7 m ρ c hcol, at_W3_v8 m ρ c]
  rfl

/-! ## Layer 2 -/

/-- After region 2 the product buffer holds H1·W1. -/
theorem at_W5_v10 (hcol : ColInRange m c) : W5 m ρ c (Proc.devRef .tc main_v10)
    = Host.dotGeneral (F := Ideal) Cert.ReferenceIdeal.dot_S100000x32_S32x16_S100000x16_1_0_0_1_n_n none (H1 m c) (w1 m c) := by
  refine (W5_arr m ρ c 2).trans ((Cert.KernelIdeal.MatmulValue2.final (V4 m ρ) c).trans ?_)
  show Host.dotGeneral (F := Ideal) Cert.ReferenceIdeal.dot_S100000x32_S32x16_S100000x16_1_0_0_1_n_n none (W4 m ρ c (Proc.devRef .tc main_v9)) (W4 m ρ c (Proc.devRef .tc main_arg6)) = _
  rw [at_W4_v9 m ρ c hcol, at_W4 m ρ c main_arg6 isArg6]

/-- At region 3's entry its first array holds the layer's aggregation. -/
theorem at_W7_v17 (hcol : ColInRange m c) : W7 m ρ c (Proc.devRef .tc main_v17)
    = Cert.Spec2.agg (Host.dotGeneral (F := Ideal) Cert.ReferenceIdeal.dot_S100000x32_S32x16_S100000x16_1_0_0_1_n_n none (H1 m c) (w1 m c)) (erow m c) (ecol m c) (ew m c) := by
  have h := Cert.KernelIdeal.Stretch3.agg_value (W5 m ρ c) (by rw [at_W5 m ρ c main_arg2 isArg2]; exact hcol)
  rw [at_W5_v10 m ρ c hcol, at_W5 m ρ c main_arg1 isArg1, at_W5 m ρ c main_arg2 isArg2, at_W5 m ρ c main_arg3 isArg3] at h
  exact h

/-- At region 3's entry its second array holds the bias row. -/
theorem at_W7_v18 : W7 m ρ c (Proc.devRef .tc main_v18)
    = broadcastInDim S1x16 ![1] Cert.ReferenceIdeal.Facts₀.bcast_S16_S1x16_1 (b1 m c) := by
  have h := Cert.KernelIdeal.Stretch3.bias_value (W5 m ρ c)
  rw [at_W5 m ρ c main_arg7 isArg7] at h
  exact h

/-- After region 3 its result buffer holds the second layer's output. -/
theorem at_W8_v19 (hcol : ColInRange m c) : W8 m ρ c (Proc.devRef .tc main_v19) = H2 m c := by
  refine (W8_arr m ρ c 2).trans ((Cert.KernelIdeal.BiasReluValue3.final (V7 m ρ) c).trans ?_)
  show Cert.Spec2.biasRelu (W7 m ρ c (Proc.devRef .tc main_v17)) (W7 m ρ c (Proc.devRef .tc main_v18)) = _
  rw [at_W7_v17 m ρ c hcol, at_W7_v18 m ρ c]
  rfl

/-! ## Layer 3 -/

/-- After region 4 the product buffer holds H2·W2. -/
theorem at_W9_v20 (hcol : ColInRange m c) : W9 m ρ c (Proc.devRef .tc main_v20)
    = Host.dotGeneral (F := Ideal) Cert.ReferenceIdeal.dot_S100000x16_S16x40_S100000x40_1_0_0_1_n_n none (H2 m c) (w2 m c) := by
  refine (W9_arr m ρ c 2).trans ((Cert.KernelIdeal.MatmulValue4.final (V8 m ρ) c).trans ?_)
  show Host.dotGeneral (F := Ideal) Cert.ReferenceIdeal.dot_S100000x16_S16x40_S100000x40_1_0_0_1_n_n none (W8 m ρ c (Proc.devRef .tc main_v19)) (W8 m ρ c (Proc.devRef .tc main_arg8)) = _
  rw [at_W8_v19 m ρ c hcol, at_W8 m ρ c main_arg8 isArg8]

/-- At region 5's entry its first array holds the layer's aggregation. -/
theorem at_W11_v27 (hcol : ColInRange m c) : W11 m ρ c (Proc.devRef .tc main_v27)
    = Cert.Spec3.agg (Host.dotGeneral (F := Ideal) Cert.ReferenceIdeal.dot_S100000x16_S16x40_S100000x40_1_0_0_1_n_n none (H2 m c) (w2 m c)) (erow m c) (ecol m c) (ew m c) := by
  have h := Cert.KernelIdeal.Stretch5.agg_value (W9 m ρ c) (by rw [at_W9 m ρ c main_arg2 isArg2]; exact hcol)
  rw [at_W9_v20 m ρ c hcol, at_W9 m ρ c main_arg1 isArg1, at_W9 m ρ c main_arg2 isArg2, at_W9 m ρ c main_arg3 isArg3] at h
  exact h

/-- At region 5's entry its second array holds the bias row. -/
theorem at_W11_v28 : W11 m ρ c (Proc.devRef .tc main_v28)
    = broadcastInDim S1x40 ![1] Cert.ReferenceIdeal.Facts₀.bcast_S40_S1x40_1 (b2 m c) := by
  have h := Cert.KernelIdeal.Stretch5.bias_value (W9 m ρ c)
  rw [at_W9 m ρ c main_arg9 isArg9] at h
  exact h

/-- THE RESULT: after the last region the result buffer holds the three layers composed. -/
theorem result (hcol : ColInRange m c) : W12 m ρ c (Proc.devRef .tc main_v29) = H3 m c := by
  refine (W12_arr m ρ c 2).trans ((Cert.KernelIdeal.BiasReluValue5.final (V11 m ρ) c).trans ?_)
  show Cert.Spec3.biasRelu (W11 m ρ c (Proc.devRef .tc main_v27)) (W11 m ρ c (Proc.devRef .tc main_v28)) = _
  rw [at_W11_v27 m ρ c hcol, at_W11_v28 m ρ c]
  rfl

end Cert.KernelIdeal.KernelValue

end
-- ==== Proof.lean ====
/-
  The certificate of a three-layer graph convolution against its jnp reference, over the extended reals.

  Each layer maps node features H (100000 rows) to relu(A·(H·W) + b), where A is a sparse matrix given as an edge list:
  row `col e` of H·W is gathered for every edge e, scaled by the edge's weight and added into row `row e`. The kernel
  program computes H·W and the bias-plus-relu in tiled regions (25 blocks of 4000 rows; the product with both operands
  narrowed to bf16, which over the extended reals changes nothing) and leaves the gather and the scatter-add to host
  operations; the reference does everything on the host. Layer by layer the two are the same function: a block of the
  tiled product is the block of the whole product (the same sum over the contracted axis); the bias added as a one-row
  array inside the region is the bias broadcast on the host; and the gather, the scaling and the scatter-add are the
  same host operations on both sides — except that the kernel program gathers through `take`, which fills a row whose
  source id is out of range where the reference's plain indexing clamps the id. Under the precondition's last conjunct,
  every source id in [−100000, 100000), no row is ever filled and the two gathers agree. No law of arithmetic beyond the
  equality of the two sums is used, so finiteness of the float inputs is never opened.

  The kernel program's run is read boundary by boundary (Proof/KernelValue.lean) off the launch theorem called with a
  post that names the result buffer (Proof/RunValue.lean); the reference's run is its generated run.
-/
import proofs.«417788_j2594160246963_1_alg».proof.Defs
import proofs.«417788_j2594160246963_1_alg».proof.Proof.Gen.Kernel
import proofs.«417788_j2594160246963_1_alg».proof.Proof.Gen.Kernel.Skeleton
import proofs.«417788_j2594160246963_1_alg».proof.Proof.Gen.Kernel.Launch
import proofs.«417788_j2594160246963_1_alg».proof.Proof.Gen.Kernel.Points
import proofs.«417788_j2594160246963_1_alg».proof.Proof.Gen.Kernel.Frame
import proofs.«417788_j2594160246963_1_alg».proof.Proof.Gen.KernelIdeal
import proofs.«417788_j2594160246963_1_alg».proof.Proof.Gen.KernelIdeal.Skeleton
import proofs.«417788_j2594160246963_1_alg».proof.Proof.Gen.KernelIdeal.Launch
import proofs.«417788_j2594160246963_1_alg».proof.Proof.Gen.KernelIdeal.Points
import proofs.«417788_j2594160246963_1_alg».proof.Proof.Gen.KernelIdeal.Frame
import proofs.«417788_j2594160246963_1_alg».proof.Proof.Gen.ReferenceIdeal
import proofs.«417788_j2594160246963_1_alg».proof.Proof.Gen.ReferenceIdeal.Run
import proofs.«417788_j2594160246963_1_alg».proof.Proof.Gen.Pre_finite_inputs
import proofs.«417788_j2594160246963_1_alg».proof.Proof.PreRange
import proofs.«417788_j2594160246963_1_alg».proof.Proof.RunValue
import proofs.«417788_j2594160246963_1_alg».proof.Proof.KernelValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the ten arguments, under the precondition, both programs end with the three layers
    composed, of the arguments' launch contents, in their result buffers. -/
theorem algebraic : Cert.algebraic_KernelIdeal_ReferenceIdeal := by
  intro m ρ m' ρ' hpre hagree
  have hcol : ∀ (c : Dev Cert.KernelIdeal.nD) (e : Cert.KernelIdeal.S3200000.Idx),
      -(100000 : ℤ) ≤ (Cert.KernelIdeal.KernelValue.ecol m c e).toInt
        ∧ (Cert.KernelIdeal.KernelValue.ecol m c e).toInt < (100000 : ℤ) :=
    fun c e => Cert.PreRange.col_range _ _ _ _ _ _ _ _ _ _ (hpre c) e
  refine ⟨fun c => Cert.KernelIdeal.KernelValue.H3 m c, ?_, ?_⟩
  · exact (θ_run Cert.KernelIdeal.defs _ _).mono
      (fun r h c => ⟨(h c).1.trans (Cert.KernelIdeal.KernelValue.result m ρ c (hcol c)), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
